-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128x32 : Shape := ⟨3, ![4096, 128, 32]⟩
abbrev S4096x128 : Shape := ⟨2, ![4096, 128]⟩
abbrev S4096x16 : Shape := ⟨2, ![4096, 16]⟩
abbrev S16x4096 : Shape := ⟨2, ![16, 4096]⟩
abbrev S4096 : Shape := ⟨1, ![4096]⟩
abbrev S8x2048x4096 : Shape := ⟨3, ![8, 2048, 4096]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S4096x16 : S_.BroadcastsInDim S4096x16 (![] : Fin 0 → Fin S4096x16.rank)
  reducesTo_S4096x16_S_d0_1 : S4096x16.ReducesTo [0, 1] S_
  bcast_S_S16x4096 : S_.BroadcastsInDim S16x4096 (![] : Fin 0 → Fin S16x4096.rank)
  reducesTo_S16x4096_S_d0_1 : S16x4096.ReducesTo [0, 1] S_
  bcast_S_S4096 : S_.BroadcastsInDim S4096 (![] : Fin 0 → Fin S4096.rank)
  reducesTo_S4096_S_d0 : S4096.ReducesTo [0] S_
  bcast_S_S8x2048x4096 : S_.BroadcastsInDim S8x2048x4096 (![] : Fin 0 → Fin S8x2048x4096.rank)
  reducesTo_S8x2048x4096_S_d0_1_2 : S8x2048x4096.ReducesTo [0, 1, 2] S_

variable [Facts]

def fn_part1 {F : FTy → Type} [FloatOps F] (main_arg5 : FVec F S8x2048x4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S8x2048x4096 .f32 := Host.absf main_arg5
  let main_cst_6 : FVec F S_ .f32 := constant S_ .f32 0x7F800000#32
  let main_v20 : FVec F S8x2048x4096 .f32 := broadcastInDim S8x2048x4096 ![] bcast_S_S8x2048x4096 main_cst_6
  let main_v21 : IVec S8x2048x4096 1 := cmpf .olt main_v19 main_v20
  let main_c_7 : IVec S_ 1 := constantI S_ 1 1#1
  let main_v22 : IVec S_ 1 := (fun x v => Host.reduce IntOp.andi x v reducesTo_S8x2048x4096_S_d0_1_2 h_S_) main_v21 main_c_7
  let main_v23 : IVec S_ 1 := andi main_v18 main_v22
  main_v23

def fn {F : FTy → Type} [FloatOps F] (main_arg0 : IVec S4096x128x32 32) (main_arg1 : FVec F S4096x128 .f32) (main_arg2 : FVec F S4096x16 .f32) (main_arg3 : FVec F S16x4096 .f32) (main_arg4 : FVec F S4096 .f32) (main_arg5 : FVec F S8x2048x4096 .f32) : IVec S_ 1 :=
  let main_v0 : FVec F S4096x128 .f32 := Host.absf main_arg1
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x16 .f32 := Host.absf main_arg2
  let main_cst_0 : FVec F S_ .f32 := constant S_ .f32 0x7F800000#32
  let main_v5 : FVec F S4096x16 .f32 := broadcastInDim S4096x16 ![] bcast_S_S4096x16 main_cst_0
  let main_v6 : IVec S4096x16 1 := cmpf .olt main_v4 main_v5
  let main_c_1 : IVec S_ 1 := constantI S_ 1 1#1
  let main_v7 : IVec S_ 1 := (fun x v => Host.reduce IntOp.andi x v reducesTo_S4096x16_S_d0_1 h_S_) main_v6 main_c_1
  let main_v8 : IVec S_ 1 := andi main_v3 main_v7
  let main_v9 : FVec F S16x4096 .f32 := Host.absf main_arg3
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg5 main_v13 main_v16
-- ==== Kernel.lean ====
abbrev S4096x128x32 : Shape := ⟨3, ![4096, 128, 32]⟩
abbrev S4096x128 : Shape := ⟨2, ![4096, 128]⟩
abbrev S4096x16 : Shape := ⟨2, ![4096, 16]⟩
abbrev S16x4096 : Shape := ⟨2, ![16, 4096]⟩
abbrev S4096 : Shape := ⟨1, ![4096]⟩
abbrev S8x2048x4096 : Shape := ⟨3, ![8, 2048, 4096]⟩
abbrev S4096x4096 : Shape := ⟨2, ![4096, 4096]⟩
abbrev S256x128x32 : Shape := ⟨3, ![256, 128, 32]⟩
abbrev S256x128 : Shape := ⟨2, ![256, 128]⟩
abbrev S256x16 : Shape := ⟨2, ![256, 16]⟩
abbrev S256x4096 : Shape := ⟨2, ![256, 4096]⟩
abbrev S256x128x1 : Shape := ⟨3, ![256, 128, 1]⟩
abbrev S16384x4096 : Shape := ⟨2, ![16384, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 11
  | .vmem => 18
  | .smem => 0
  | _ => 0

abbrev bufTy : (tb : Table) → Fin (tcTables nBuf tb) → BufTy
  | .hbm, ⟨0, _⟩ => ⟨S4096x128x32, .i32⟩
  | .hbm, ⟨1, _⟩ => ⟨S4096x128, .f32⟩
  | .hbm, ⟨2, _⟩ => ⟨S4096x16, .f32⟩
  | .hbm, ⟨3, _⟩ => ⟨S16x4096, .f32⟩
  | .hbm, ⟨4, _⟩ => ⟨S4096, .f32⟩
  | .hbm, ⟨5, _⟩ => ⟨S8x2048x4096, .f32⟩
  | .hbm, ⟨6, _⟩ => ⟨S4096x4096, .bf16⟩
  | .hbm, ⟨7, _⟩ => ⟨S16384x4096, .f32⟩
  | .hbm, ⟨8, _⟩ => ⟨S1x4096, .f32⟩
  | .hbm, ⟨9, _⟩ => ⟨S16384x4096, .f32⟩
  | .hbm, ⟨10, _⟩ => ⟨S8x2048x4096, .f32⟩
  | .local _ .vmem, ⟨0, _⟩ => ⟨S256x128x32, .i32⟩
  | .local _ .vmem, ⟨1, _⟩ => ⟨S256x128x32, .i32⟩
  | .local _ .vmem, ⟨2, _⟩ => ⟨S256x128, .f32⟩
  | .local _ .vmem, ⟨3, _⟩ => ⟨S256x128, .f32⟩
  | .local _ .vmem, ⟨4, _⟩ => ⟨S256x16, .f32⟩
  | .local _ .vmem, ⟨5, _⟩ => ⟨S256x16, .f32⟩
  | .local _ .vmem, ⟨6, _⟩ => ⟨S16x4096, .f32⟩
  | .local _ .vmem, ⟨7, _⟩ => ⟨S256x4096, .bf16⟩
  | .local _ .vmem, ⟨8, _⟩ => ⟨S256x4096, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .bf16⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .f32⟩
  | _, _ => ⟨S4096x128x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128x32 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![16, 4, 4], ![false, false, false]⟩

def k1_cond2 (i : grid1.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S256x128x32_S256x128x32_0_0_0 : ∀ a, (![0, 0, 0] : Fin 3 → Nat) a + S256x128x32.size a ≤ S256x128x32.size a
  h_S256x128x32 : 0 < S256x128x32.numel
  inb_S256x128_S256x128_0_0 : ∀ a, (![0, 0] : Fin 2 → Nat) a + S256x128.size a ≤ S256x128.size a
  h_S256x128 : 0 < S256x128.numel
  shapeCasts_S256x128_S256x128x1 : S256x128.ShapeCasts S256x128x1
  broadcasts_S256x128x1_S256x128x32 : S256x128x1.Broadcasts S256x128x32
  shapeCasts_S256x128x32_S256x4096 : S256x128x32.ShapeCasts S256x4096
  inb_S256x16_S256x16_0_0 : ∀ a, (![0, 0] : Fin 2 → Nat) a + S256x16.size a ≤ S256x16.size a
  h_S256x16 : 0 < S256x16.numel
  bitsLt_bf16_f32 : FTy.bits .bf16 < FTy.bits .f32
  inb_S16x4096_S16x4096_0_0 : ∀ a, (![0, 0] : Fin 2 → Nat) a + S16x4096.size a ≤ S16x4096.size a
  h_S16x4096 : 0 < S16x4096.numel
  inb_S256x4096_S256x4096_0_0 : ∀ a, (![0, 0] : Fin 2 → Nat) a + S256x4096.size a ≤ S256x4096.size a
  h_S256x4096 : 0 < S256x4096.numel
  packedbf16_S256x4096_S256x4096_0_0 : (Rect.unit (s := S256x4096) ![0, 0] S256x4096.size inb_S256x4096_S256x4096_0_0).PackedRows (EltTy.packing .bf16)
  shapeCasts_S8x2048x4096_S16384x4096 : S8x2048x4096.ShapeCasts S16384x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x4096_S8x2048x4096 : S16384x4096.ShapeCasts S8x2048x4096
  dot_S256x16_S16x4096_S256x4096_1_0_0_1_n_n_wf : DotDims.WF S256x16 S16x4096 S256x4096 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128x32.size a ≤ S4096x128x32.size a
  hwx0_0 : ∀ i : grid0.Coords, EltTy.bits .i32 = 32 ∨ (Rect.block (s := S4096x128x32) S256x128x32.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S4096x128.size a
  hwx0_1 : ∀ i : grid0.Coords, EltTy.bits .f32 = 32 ∨ (Rect.block (s := S4096x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x16.size a ≤ S4096x16.size a
  hwx0_2 : ∀ i : grid0.Coords, EltTy.bits .f32 = 32 ∨ (Rect.block (s := S4096x16) S256x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x4096.size a ≤ S16x4096.size a
  hwx0_3 : ∀ i : grid0.Coords, EltTy.bits .f32 = 32 ∨ (Rect.block (s := S16x4096) S16x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x4096.size a ≤ S4096x4096.size a
  hwx0_4 : ∀ i : grid0.Coords, EltTy.bits .bf16 = 32 ∨ (Rect.block (s := S4096x4096) S256x4096.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S16384x4096.size a
  hwx1_0 : ∀ i : grid1.Coords, EltTy.bits .f32 = 32 ∨ (Rect.block (s := S16384x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S4096x4096.size a
  hwx1_1 : ∀ i : grid1.Coords, EltTy.bits .bf16 = 32 ∨ (Rect.block (s := S4096x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x4096.size a
  hwx1_2 : ∀ i : grid1.Coords, EltTy.bits .f32 = 32 ∨ (Rect.block (s := S1x4096) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S16384x4096.size a
  hwx1_3 : ∀ i : grid1.Coords, EltTy.bits .f32 = 32 ∨ (Rect.block (s := S16384x4096) S1024x1024.size (cc1_transform_3 i) (hinb1_3 i)).WholeWords (EltTy.packing .f32)

variable [Facts₀]

def dot_S256x16_S16x4096_S256x4096_1_0_0_1_n_n : DotDims S256x16 S16x4096 S256x4096 where
  lhsContracting := [1]
  rhsContracting := [0]
  lhsNonContracting := [0]
  rhsNonContracting := [1]
  lhsBatch := []
  rhsBatch := []
  wf := dot_S256x16_S16x4096_S256x4096_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg0) S256x128x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S256x4096.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x128x32 : Shape := ⟨3, ![4096, 128, 32]⟩
abbrev S4096x128 : Shape := ⟨2, ![4096, 128]⟩
abbrev S4096x16 : Shape := ⟨2, ![4096, 16]⟩
abbrev S16x4096 : Shape := ⟨2, ![16, 4096]⟩
abbrev S4096 : Shape := ⟨1, ![4096]⟩
abbrev S8x2048x4096 : Shape := ⟨3, ![8, 2048, 4096]⟩
abbrev S4096x128x1 : Shape := ⟨3, ![4096, 128, 1]⟩
abbrev S_ : Shape := ⟨0, ![]⟩
abbrev S4096x4096 : Shape := ⟨2, ![4096, 4096]⟩
abbrev S1x1x4096 : Shape := ⟨3, ![1, 1, 4096]⟩

abbrev nBuf : Space → Nat
  | .hbm => 23
  | .vmem => 0
  | .smem => 0
  | _ => 0

abbrev bufTy : (tb : Table) → Fin (tcTables nBuf tb) → BufTy
  | .hbm, ⟨0, _⟩ => ⟨S4096x128x32, .i32⟩
  | .hbm, ⟨1, _⟩ => ⟨S4096x128, .f32⟩
  | .hbm, ⟨2, _⟩ => ⟨S4096x16, .f32⟩
  | .hbm, ⟨3, _⟩ => ⟨S16x4096, .f32⟩
  | .hbm, ⟨4, _⟩ => ⟨S4096, .f32⟩
  | .hbm, ⟨5, _⟩ => ⟨S8x2048x4096, .f32⟩
  | .hbm, ⟨6, _⟩ => ⟨S4096x128x1, .f32⟩
  | .hbm, ⟨7, _⟩ => ⟨S4096x128x32, .f32⟩
  | .hbm, ⟨8, _⟩ => ⟨S_, .f32⟩
  | .hbm, ⟨9, _⟩ => ⟨S4096x128x32, .f32⟩
  | .hbm, ⟨10, _⟩ => ⟨S4096x128x32, .f32⟩
  | .hbm, ⟨11, _⟩ => ⟨S4096x128x32, .f32⟩
  | .hbm, ⟨12, _⟩ => ⟨S4096x128x32, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S8x2048x4096, .f32⟩
  | .hbm, ⟨20, _⟩ => ⟨S1x1x4096, .f32⟩
  | .hbm, ⟨21, _⟩ => ⟨S8x2048x4096, .f32⟩
  | .hbm, ⟨22, _⟩ => ⟨S8x2048x4096, .f32⟩
  | _, _ => ⟨S4096x128x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  bcast_S4096x128_S4096x128x1_0_1 : S4096x128.BroadcastsInDim S4096x128x1 (![0, 1] : Fin 2 → Fin S4096x128x1.rank)
  bcast_S_S4096x128x32 : S_.BroadcastsInDim S4096x128x32 (![] : Fin 0 → Fin S4096x128x32.rank)
  bcast_S4096x128x1_S4096x128x32_0_1_2 : S4096x128x1.BroadcastsInDim S4096x128x32 (![0, 1, 2] : Fin 3 → Fin S4096x128x32.rank)
  shapeCasts_S4096x128x32_S4096x4096 : S4096x128x32.ShapeCasts S4096x4096
  bcast_S_S4096x4096 : S_.BroadcastsInDim S4096x4096 (![] : Fin 0 → Fin S4096x4096.rank)
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S4096x16_S16x4096_S4096x4096_1_0_0_1_n_n_wf : DotDims.WF S4096x16 S16x4096 S4096x4096 [1] [0] [0] [1] [] []
  dot_S8x2048x4096_S4096x4096_S8x2048x4096_2_1_01_0_n_n_wf : DotDims.WF S8x2048x4096 S4096x4096 S8x2048x4096 [2] [1] [0, 1] [0] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.K.Dequant.lean ====
/-
  Region 0 of @main: the dequantisation kernel on its grid of 16 row blocks, at the buffer contents `V` the
  region is entered with. One control case: the body loads the four input blocks whole (256 rows of the
  quantised words, of the per-group scales, of the left patch factor, and all of the right patch factor), and stores
  one value covering the whole 256×4096 output block. Stated here: each window's block read off its array, what
  the body leaves in the output's staging buffer as a function of the four input blocks, the body's triple,
  the pipeline's proof data and the obligation at every grid point. Generic in the float instance.
-/
import proofs.«109840_j44985487458785_1_alg».proof.Proof.Gen.Kernel.Launch
import proofs.«109840_j44985487458785_1_alg».proof.Proof.Gen.Kernel.Skeleton
import proofs.«109840_j44985487458785_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: rows `256 t … 256 t + 255` of its array (all 16 rows of the right
    factor for window 3), read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the pipeline fetched it there or
    the block index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole buffer -/

abbrev rQ : Rect S256x128x32 := Rect.unit (s := S256x128x32) ![0, 0, 0] S256x128x32.size inb_S256x128x32_S256x128x32_0_0_0
abbrev rS : Rect S256x128 := Rect.unit (s := S256x128) ![0, 0] S256x128.size inb_S256x128_S256x128_0_0
abbrev rU : Rect S256x16 := Rect.unit (s := S256x16) ![0, 0] S256x16.size inb_S256x16_S256x16_0_0
abbrev rD : Rect S16x4096 := Rect.unit (s := S16x4096) ![0, 0] S16x4096.size inb_S16x4096_S16x4096_0_0
abbrev rW : Rect S256x4096 := Rect.unit (s := S256x4096) ![0, 0] S256x4096.size inb_S256x4096_S256x4096_0_0

/-- What the body leaves in the output's staging buffer, from the four input blocks: its one store. -/
def out0_4 (x0 : Vec F S256x128x32 .i32) (x1 : Vec F S256x128 .f32) (x2 : Vec F S256x16 .f32) (x3 : Vec F S16x4096 .f32) : Vec F S256x4096 .bf16 :=
  View.canon [⟨rW, k0_pay1 (View.ld x0 rQ) (View.ld x1 rS) (View.ld x2 rU) (View.ld x3 rD)⟩]

/-- The one store covers the buffer. -/
theorem cover0_4 (p0 : Vec F S256x4096 .bf16) (y : S256x4096.Idx) :
    ∃ pc ∈ ([⟨rW, p0⟩] : List (View.Piece (Elt F) S256x4096 .bf16)), y ∈ pc.1.set :=
  View.cover_of_tiled [⟨rW, p0⟩] S256x4096.size (by rfl) y

/-! ## The body's triple -/

set_option maxHeartbeats 1000000 in
/-- On whole staging memrefs, the inputs' at contents `x0 … x3` and the output's at anything, the body runs to
    its continuation holding the inputs' as they were and the output's at `out0_4` of them. -/
theorem sound_kernel0 (c : Dev nD) (E : Set ℕ) (i : grid0.Coords)
    (arg1 : Memref sig .tc .vmem S256x128x32 .i32) (harg1 : arg1.IsWhole) (arg2 : Memref sig .tc .vmem S256x128 .f32) (harg2 : arg2.IsWhole)
    (arg3 : Memref sig .tc .vmem S256x16 .f32) (harg3 : arg3.IsWhole) (arg4 : Memref sig .tc .vmem S16x4096 .f32) (harg4 : arg4.IsWhole)
    (arg5 : Memref sig .tc .vmem S256x4096 .bf16) (harg5 : arg5.IsWhole)
    (x0 : Vec F S256x128x32 .i32) (x1 : Vec F S256x128 .f32) (x2 : Vec F S256x16 .f32) (x3 : Vec F S16x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0_dequant_lora_kernel i arg1 harg1 arg2 harg2 arg3 harg3 arg4 harg4 arg5 harg5) K := by
  simp only [cc0_dequant_lora_kernel_eq_skeleton]; unfold cc0_dequant_lora_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- Pipeline 0's proof data on core `c`: the arrays as the region finds them; after the body at point `t` each
    input's buffer still at its block and the output's at `out0_4` of the four blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.K.MatmulCases.lean ====
/-
  Region 1 of @main, the blocked matrix product on its 16 × 4 × 4 grid (row block, column block, contraction
  block; the contraction block runs fastest): what its three control cases share. The body resets its accumulator
  when the contraction block is 0, adds one block product at every point, and when the contraction block is 3
  adds the bias row and stores the output block. So a point is in case A (contraction block 0), B (1 or 2) or
  C (3). Stated here: the windows' blocks at the entry contents `V`, the two branch conditions in closed form over
  the grid, where the output window is idle, the staging and scratch memrefs the runs are stated over.
-/
import proofs.«109840_j44985487458785_1_alg».proof.Proof.Gen.Kernel.Launch
import proofs.«109840_j44985487458785_1_alg».proof.Proof.Gen.Kernel.Skeleton
import proofs.«109840_j44985487458785_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- "The contraction block is 0": the condition under which the body resets its accumulator. -/
abbrev cond1_0 (i : grid1.Coords) : Prop := (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- "The contraction block is 3": the condition under which the body adds the bias and stores the output block. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- In cases A and B the body stores nothing into the output window and the pipeline does not write its block back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- In case C the output window is live: the body stores its block. -/
theorem liveAt1_3_C : ∀ t : Fin cfg1.N, ¬cond1_0 (grid1.coords t) → cond1_1 (grid1.coords t) → cfg1.idle 3 (grid1.coords t) = false := by decide +kernel

/-! ## The memrefs the runs are stated over -/

/-- One staging buffer of the output window, through which its contents are stated. -/
abbrev VO1_3 : View sig .tc .vmem S1024x1024 .f32 := (Memref.whole cc1_stg3_0 : Memref sig .tc .vmem S1024x1024 .f32).view
/-- Each window's current staging memref at point `t`, as the pipeline passes it to the body, and its wholeness. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1_0 : Memref sig .tc .vmem S1024x1024 .f32 := Memref.whole cc1_scratch0
/-- The accumulator as a view: what it holds is stated through it. -/
abbrev VS1_0 : View sig .tc .vmem S1024x1024 .f32 := scM1_0.view

/-- The region's resting invariant with the accumulator as a memref owned at some contents: the other regions'
    staging buffers at anything, the accumulator at anything, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1_0 fullShare d)) ∗ (∃ r, prngReg c r)) := by
  unfold Pipeline.ΦA; rw [scopedRest1_eq]; simp only [scM1_0, owns_whole]; try rfl

/-- Region 0's staging buffers, each whole at some contents: scoped memory this region never touches. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- The resting invariant opened: region 0's staging buffers, the accumulator at some contents, the generator register. -/
theorem PhiA1_open (c : Dev nD) :
    (Pipeline.ΦA spec1 c : sProp 𝕄) ⊢ iprop(others1 (F := F) c ∗ (∃ d, owns (c : Thread nD τ) scM1_0 fullShare d) ∗ (∃ r, prngReg c r)) := by
  rw [PhiA1_eq]; unfold others1
  iintro ⟨⟨R0, R1, R2, R3, R4, R5, R6, R7, R8, HS⟩, Hg⟩
  isplitl [R0 R1 R2 R3 R4 R5 R6 R7 R8]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    iexact R8
  isplitl [HS]; · iexact HS
  iexact Hg

/-- And closed again. -/
theorem PhiA1_close (c : Dev nD) :
    iprop(others1 (F := F) c ∗ (∃ d, owns (c : Thread nD τ) scM1_0 fullShare d) ∗ (∃ r, prngReg c r)) ⊢ (Pipeline.ΦA spec1 c : sProp 𝕄) := by
  rw [PhiA1_eq]; unfold others1
  iintro ⟨⟨R0, R1, R2, R3, R4, R5, R6, R7, R8⟩, HS, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact HS
  iexact Hg

end Cert.Kernel.Frame

end
-- ==== Proof.K.MatmulRunA.lean ====
/-
  The blocked matrix product's body in case A (contraction block 0): it stores zeros over the whole accumulator,
  loads the row block of the left operand and the block of the right operand, reads the accumulator back, adds their
  product and stores the sum over the whole accumulator; it neither loads the bias nor stores into the output
  window. The pieces the accumulator ends with are found by running the body.
-/
import proofs.«109840_j44985487458785_1_alg».proof.Proof.K.MatmulCases

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A's triple on whole staging memrefs: the three inputs at their contents and the output's buffer at `xi3` are
    handed back untouched, the accumulator — at anything before — ends with the pieces `LS0` written (last first). -/
noncomputable def kernelRun1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1_matmul_kernel i arg3 harg3 arg4 harg4 arg5 harg5 arg6 harg6 arg7 harg7) K } := by
  refine ⟨[], ?_, fun xi3 E K => ?run⟩
  case run =>
    simp only [cc1_matmul_kernel_eq_skeleton]; unfold cc1_matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Frame

end
-- ==== Proof.K.MatmulRunB.lean ====
/-
  The blocked matrix product's body in case B (contraction block 1 or 2): it loads the two operand blocks, reads
  the accumulator — holding what the point before left, `xs0` —, adds the block product and stores the sum over the
  whole accumulator; nothing else is stored.
-/
import proofs.«109840_j44985487458785_1_alg».proof.Proof.K.MatmulRunA

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B's triple: inputs and the output's buffer handed back untouched, the accumulator from `xs0` to the pieces `LS0`. -/
noncomputable def kernelRun1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2
                ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1_matmul_kernel i arg3 harg3 arg4 harg4 arg5 harg5 arg6 harg6 arg7 harg7) K } := by
  refine ⟨[], ?_, fun xi3 E K => ?run⟩
  case run =>
    simp only [cc1_matmul_kernel_eq_skeleton]; unfold cc1_matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Frame

end
-- ==== Proof.K.MatmulRunC.lean ====
/-
  The blocked matrix product's body in case C (contraction block 3): as in case B the accumulator goes from what the
  point before left, `xs0`, to that plus the block product; then the body reads it back, loads the bias row,
  adds it to every row and stores the result over the whole output block.
-/
import proofs.«109840_j44985487458785_1_alg».proof.Proof.K.MatmulRunB

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C's triple: inputs handed back untouched, the output's buffer — at anything before — with the pieces `L3`
    written, the accumulator from `xs0` to the pieces `LS0`. -/
noncomputable def kernelRun1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc1_matmul_kernel i arg3 harg3 arg4 harg4 arg5 harg5 arg6 harg6 arg7 harg7) K } := by
  refine ⟨?_, ?_, fun E K => ?run⟩
  case run =>
    simp only [cc1_matmul_kernel_eq_skeleton]; unfold cc1_matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Frame

end
-- ==== Proof.K.Matmul.lean ====
/-
  Region 1 of @main, the blocked matrix product, at the buffer contents `V` it is entered with: what each control
  case leaves in the output block and in the accumulator (the pieces the runs found, read back), what both hold after
  every grid point by recursion on the point — the accumulator of a point in case B or C builds on what the point before
  left —, the region's invariant carrying the accumulator's contents from point to point, the pipeline's proof data and
  the obligation at every grid point. Generic in the float instance.
-/
import proofs.«109840_j44985487458785_1_alg».proof.Proof.K.MatmulRunC

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A stores nothing into the output window: a placeholder nothing consults (the window is idle there). -/
def out1_A_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i) (x0 : Vec F S1024x1024 .f32) (x1 : Vec F S1024x1024 .bf16) (x2 : Vec F S1x1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)

/-- Case A's pieces cover the accumulator. -/
theorem scover1_A_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i) (x0 : Vec F S1024x1024 .f32) (x1 : Vec F S1024x1024 .bf16) (x2 : Vec F S1x1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y

/-- What case A leaves in the accumulator. -/
def sout1_A_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i) (x0 : Vec F S1024x1024 .f32) (x1 : Vec F S1024x1024 .bf16) (x2 : Vec F S1x1024 .f32) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).2.1)

/-- Case B stores nothing into the output window either. -/
def out1_B_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i) (x0 : Vec F S1024x1024 .f32) (x1 : Vec F S1024x1024 .bf16) (x2 : Vec F S1x1024 .f32) (xs0 : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs0).1)

theorem scover1_B_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i) (x0 : Vec F S1024x1024 .f32) (x1 : Vec F S1024x1024 .bf16) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y

/-- What case B leaves in the accumulator, over what the point before left (`xs0`). -/
def sout1_B_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i) (x0 : Vec F S1024x1024 .f32) (x1 : Vec F S1024x1024 .bf16) (x2 : Vec F S1x1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- Case C's one store covers the output block. -/
theorem cover1_C_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x1024 .f32) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y

/-- What case C leaves in the output's staging buffer. -/
def out1_C_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x1024 .f32) (x1 : Vec F S1024x1024 .bf16) (x2 : Vec F S1x1024 .f32) (xs0 : Vec F S1024x1024 .f32) : Vec F S1024x1024 .f32 :=
  VO1_3.read (Elt F) (VO1_3.writes (Elt F) VO1_3.junk (kernelRun1_C c i arg3 harg3 arg4 harg4 arg5 harg5 arg6 harg6 arg7 harg7 hc0 hc1 x0 x1 x2 xs0).1)

theorem scover1_C_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x1024 .f32) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y

/-- What case C leaves in the accumulator, over what the point before left. -/
def sout1_C_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x1024 .f32) (x1 : Vec F S1024x1024 .bf16) (x2 : Vec F S1x1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## What the output's buffer and the accumulator hold after each point -/

/-- After the body at position `n`: (the output's staging buffer, the accumulator) — the case the closed forms select at
    `n`, run at the point's memrefs and input blocks, the accumulator of cases B and C over what position `n - 1` left. -/
def outsAt1 (c : Dev nD) : (n : ℕ) → n < cfg1.N → Vec F S1024x1024 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At a point of case A. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a point of case B: over what the point before left. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point of case C: over what the point before left. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the first point the resting invariant (the accumulator at anything); afterwards region 0's
    staging buffers, the accumulator at what the point before left, the generator register at some state. -/
def PhiS (c : Dev nD) : (n : ℕ) → n ≤ cfg1.N → sProp 𝕄
  | 0, _ => Pipeline.ΦA spec1 c
  | n + 1, hn => iprop(others1 (F := F) c ∗ owns (c : Thread nD τ) scM1_0 fullShare ((outsAt1 V c n hn).2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(others1 (F := F) c ∗ owns (c : Thread nD τ) scM1_0 fullShare ((outsAt1 V c n hn).2) ∗ (∃ r, prngReg c r)) := rfl

theorem PhiS_pos (c : Dev nD) (n : ℕ) (h : n ≤ cfg1.N) (hz : n ≠ 0) :
    PhiS V c n h = iprop(others1 (F := F) c ∗ owns (c : Thread nD τ) scM1_0 fullShare ((outsAt1 V c (n - 1) (by omega)).2) ∗ (∃ r, prngReg c r)) := by
  cases n with
  | zero => exact absurd rfl hz
  | succ n => rfl

/-! ## The pipeline's proof data -/

/-- Pipeline 1's proof data on core `c`: the arrays as the region finds them; after the body at point `t` each input's
    buffer still at its block and the output's at `outsAt1`'s first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]

set_option maxHeartbeats 4800000 in
/-- The body at any point: the inputs' buffers hold their blocks; the closed forms say which case the point is in;
    the invariant hands the body the accumulator at what the point before left (at anything at the first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 256 := lt_of_lt_of_eq t.isLt (show cfg1.N = 256 from N_1)
  by_cases h0 : t.val % 4 = 0
  · by_cases h1 : t.val % 4 = 3
    · exfalso; omega
    · rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS_castSucc V c t, PhiS_zero V c _ _ hz]
        iintro ⟨HΦ, Ho, ⟨%d0, H0⟩, ⟨%d1, H1⟩, ⟨%d2, H2⟩, ⟨%d3, H3⟩⟩
        ihave HΦ' := (PhiA1_open (F := F) c) $$ HΦ
        icases HΦ' with ⟨Hoth, HS0, Hg⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg Hoth]
        · isplitl [Hoth]; · iexact Hoth
          isplitl [HS0]
          · unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨Hoth, HS0, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hg Hoth]
        · isplitl [Hoth]; · iexact Hoth
          isplitl [HS0]
          · unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 4 = 3
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      rw [PhiS_castSucc V c t, PhiS_pos V c _ _ hz]
      iintro ⟨⟨Hoth, HS0, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg Hoth]
      · isplitl [Hoth]; · iexact Hoth
        isplitl [HS0]
        · unfold owns; iexists _; isplitr
          swap; · iexact HS0
          ipureintro; exact View.read_writes_of_cover _ _ _ _ _ (scover1_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      rw [PhiS_castSucc V c t, PhiS_pos V c _ _ hz]
      iintro ⟨⟨Hoth, HS0, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg Hoth]
      · isplitl [Hoth]; · iexact Hoth
        isplitl [HS0]
        · unfold owns; iexists _; isplitr
          swap; · iexact HS0
          ipureintro; exact View.read_writes_of_cover _ _ _ _ _ (scover1_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the resting one back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht]
  have hforget : (iprop(others1 (F := F) c ∗ owns (c : Thread nD τ) scM1_0 fullShare ((outsAt1 V c (t.val - 1) (by omega)).2) ∗ (∃ r, prngReg c r)) : sProp 𝕄)
      ⊢ iprop(others1 (F := F) c ∗ (∃ d, owns (c : Thread nD τ) scM1_0 fullShare d) ∗ (∃ r, prngReg c r)) := by
    iintro ⟨Hoth, HS0, Hg⟩
    isplitl [Hoth]; · iexact Hoth
    isplitl [HS0]; · iexists _; iexact HS0
    iexact Hg
  exact hforget.trans (PhiA1_close (F := F) c)

/-- The same after the last point. -/
theorem hout1 (c : Dev nD) : (dat1 V c).Φ (Fin.last cfg1.N) ⊢ Pipeline.ΦA spec1 c :=
  Phi_out1 V c _ (by rw [Fin.val_last]; have : cfg1.N = 256 := N_1; omega)

end Cert.Kernel.Frame

end
-- ==== Proof.K.Segments.lean ====
/-
  The whole run of @main: the first kernel region, two reshapes on the host, the second kernel region, one more
  reshape. Stated here: core `c`'s buffer contents at each boundary as a fold from the launch memory (a region leaves
  its arrays at what its write-backs add up to and every other buffer as it found it; a host stretch leaves what its
  operations compute), each pipeline's proof data at its region's entry contents, the two regions as segments over the
  thread state "every unscoped buffer at the boundary's contents, the generator register at some state, nothing owed",
  and the launch: every weakly fair execution terminates and every unscoped buffer ends at the last boundary's contents.
  The six argument arrays walk back through the fold to their launch contents. Generic in the float instance.
-/
import proofs.«109840_j44985487458785_1_alg».proof.Proof.K.Dequant
import proofs.«109840_j44985487458785_1_alg».proof.Proof.K.Matmul
import proofs.«109840_j44985487458785_1_alg».proof.Proof.Gen.Kernel.Regions

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: region 0's entry. -/
abbrev W0 : Dev nD → Valuation τ sig (Elt F) := fun c b => (s₀ m ρ).mem ((c : Dev nD), b)
/-- The same read at the TensorCore's references. -/
abbrev U0 : (c : Dev nD) → (b : Ref sig .tc) → Buf (Elt F) ((c : Thread nD τ).loc b) := fun c b => W0 m ρ c b
/-- At region 0's exit: its arrays at what the pipeline leaves, every other buffer as entered. -/
def W1 (c : Dev nD) : Valuation τ sig (Elt F) :=
  Pipeline.withArrays spec0 c (W0 m ρ c) fun w => (dat0 (U0 m ρ) c).arrAt w cfg0.N
theorem W1_arr (c : Dev nD) (w : Fin cfg0.W) :
    W1 m ρ c (Proc.devRef .tc (Pipeline.arrRef spec0 w)) = (dat0 (U0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev U1 : (c : Dev nD) → (b : Ref sig .tc) → Buf (Elt F) ((c : Thread nD τ).loc b) := fun c b => W1 m ρ c b
theorem hF0 (c : Dev nD) (w : Fin cfg0.W) : (dat0 (U0 m ρ) c).arrAt w cfg0.N = U1 m ρ c (Pipeline.arrRef spec0 w) :=
  (W1_arr m ρ c w).symm
theorem hrest0 (c : Dev nD) : ∀ b, b ∉ Finset.univ.image (Pipeline.arrRef spec0) → U1 m ρ c b = U0 m ρ c b :=
  fun b hb => W1_of_ne m ρ c b fun w e => hb (Finset.mem_image.mpr ⟨w, Finset.mem_univ _, e⟩)

/-- After the two reshapes: region 1's entry. -/
abbrev W2 : Dev nD → Valuation τ sig (Elt F) := fun c => StableHlo.after hostOps1 (W1 m ρ c)
abbrev U2 : (c : Dev nD) → (b : Ref sig .tc) → Buf (Elt F) ((c : Thread nD τ).loc b) := fun c b => W2 m ρ c b
/-- At region 1's exit. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev U3 : (c : Dev nD) → (b : Ref sig .tc) → Buf (Elt F) ((c : Thread nD τ).loc b) := fun c b => W3 m ρ c b
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)

/-- After the last reshape: the end. -/
abbrev W4 : Dev nD → Valuation τ sig (Elt F) := fun c => StableHlo.after hostOps2 (W3 m ρ c)

/-! ## The arguments end as launched -/

theorem W2_of (c : Dev nD) (r : Ref sig .tc) (h : r ∉ (hostOps1_W : List (Ref sig .tc))) : W2 m ρ c (Proc.devRef .tc r) = W1 m ρ c (Proc.devRef .tc r) :=
  StableHlo.after_of_writes_sub hostOps1 _ hostOps1_writes h
theorem W4_of (c : Dev nD) (r : Ref sig .tc) (h : r ∉ (hostOps2_W : List (Ref sig .tc))) : W4 m ρ c (Proc.devRef .tc r) = W3 m ρ c (Proc.devRef .tc r) :=
  StableHlo.after_of_writes_sub hostOps2 _ hostOps2_writes h

theorem W4_main_arg0 (c : Dev nD) : W4 m ρ c (Proc.devRef .tc main_arg0) = m ((c : Thread nD τ).loc main_arg0) :=
  (W4_of m ρ c main_arg0 (by decide)).trans <| (W3_of_ne m ρ c main_arg0 (by decide)).trans <| (W2_of m ρ c main_arg0 (by decide)).trans <|
    (W1_arr m ρ c 0).trans (((dat0 (U0 m ρ) c).arrAt_in 0 rfl _).trans (A_eq0 (U0 m ρ) c 0))
theorem W4_main_arg1 (c : Dev nD) : W4 m ρ c (Proc.devRef .tc main_arg1) = m ((c : Thread nD τ).loc main_arg1) :=
  (W4_of m ρ c main_arg1 (by decide)).trans <| (W3_of_ne m ρ c main_arg1 (by decide)).trans <| (W2_of m ρ c main_arg1 (by decide)).trans <|
    (W1_arr m ρ c 1).trans (((dat0 (U0 m ρ) c).arrAt_in 1 rfl _).trans (A_eq0 (U0 m ρ) c 1))
theorem W4_main_arg2 (c : Dev nD) : W4 m ρ c (Proc.devRef .tc main_arg2) = m ((c : Thread nD τ).loc main_arg2) :=
  (W4_of m ρ c main_arg2 (by decide)).trans <| (W3_of_ne m ρ c main_arg2 (by decide)).trans <| (W2_of m ρ c main_arg2 (by decide)).trans <|
    (W1_arr m ρ c 2).trans (((dat0 (U0 m ρ) c).arrAt_in 2 rfl _).trans (A_eq0 (U0 m ρ) c 2))
theorem W4_main_arg3 (c : Dev nD) : W4 m ρ c (Proc.devRef .tc main_arg3) = m ((c : Thread nD τ).loc main_arg3) :=
  (W4_of m ρ c main_arg3 (by decide)).trans <| (W3_of_ne m ρ c main_arg3 (by decide)).trans <| (W2_of m ρ c main_arg3 (by decide)).trans <|
    (W1_arr m ρ c 3).trans (((dat0 (U0 m ρ) c).arrAt_in 3 rfl _).trans (A_eq0 (U0 m ρ) c 3))
theorem W4_main_arg4 (c : Dev nD) : W4 m ρ c (Proc.devRef .tc main_arg4) = m ((c : Thread nD τ).loc main_arg4) :=
  (W4_of m ρ c main_arg4 (by decide)).trans <| (W3_of_ne m ρ c main_arg4 (by decide)).trans <| (W2_of m ρ c main_arg4 (by decide)).trans <|
    (W1_of_ne m ρ c main_arg4 (by decide))
theorem W4_main_arg5 (c : Dev nD) : W4 m ρ c (Proc.devRef .tc main_arg5) = m ((c : Thread nD τ).loc main_arg5) :=
  (W4_of m ρ c main_arg5 (by decide)).trans <| (W3_of_ne m ρ c main_arg5 (by decide)).trans <| (W2_of m ρ c main_arg5 (by decide)).trans <|
    (W1_of_ne m ρ c main_arg5 (by decide))

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U0 m ρ) c
  | ⟨1, _⟩ => fun c => dat1 (U2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the end's contents, the generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (U0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U0 m ρ c) (U1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from `W2`, left at `W3`. Its invariant starts and ends at the resting
    one (the accumulator's contents are the region's own business). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hrest : (iprop((∃ r, prngReg c r) ∗ Pipeline.ownSems0 (Ix := Unit) (Name := ℕ) (U := UR sig nD τ) (Lvl := ℕ) (fun k : PEmpty => k.elim) c ∗ Pipeline.scopedRest (Ix := Unit) (Name := ℕ) (U := UR sig nD τ) (Lvl := ℕ) (Val := Elt F) spec1 c) : sProp 𝕄)
        ⊢ Pipeline.ΦA spec1 c := by
      unfold Pipeline.ΦA
      iintro ⟨Hp, -, Hr⟩
      isplitl [Hr]; · iexact Hr
      iexact Hp
    exact hrest.trans (hin1 (U2 m ρ) c)
  hout c := by
    rw [Pipeline.ownSems0_none]
    have hrest : (Pipeline.ΦA spec1 c : sProp 𝕄) ⊢ iprop((∃ r, prngReg c r) ∗ emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (U2 m ρ) c).trans hrest
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

/-- The last thread state, regrouped: the buffers with the generator register, and the core owing nothing. -/
theorem last_state (c : Dev nD) :
    (iprop(StableHlo.held (c : Thread nD τ) (Pipeline.ucRefs τ sig) (W4 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- THE RUN: from any memory with zero counters every weakly fair execution of @main terminates, nothing faulting,
    and every unscoped buffer of every core ends at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every weakly fair execution terminates, nothing faulting, and the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

end Cert.Kernel.Frame

end
-- ==== Proof.KI.Dequant.lean ====
/-
  Region 0 of @main: the dequantisation kernel on its grid of 16 row blocks, at the buffer contents `V` the
  region is entered with. One control case: the body loads the four input blocks whole (256 rows of the
  quantised words, of the per-group scales, of the left patch factor, and all of the right patch factor), and stores
  one value covering the whole 256×4096 output block. Stated here: each window's block read off its array, what
  the body leaves in the output's staging buffer as a function of the four input blocks, the body's triple,
  the pipeline's proof data and the obligation at every grid point. Generic in the float instance.
-/
import proofs.«109840_j44985487458785_1_alg».proof.Proof.Gen.KernelIdeal.Launch
import proofs.«109840_j44985487458785_1_alg».proof.Proof.Gen.KernelIdeal.Skeleton
import proofs.«109840_j44985487458785_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`: rows `256 t … 256 t + 255` of its array (all 16 rows of the right
    factor for window 3), read off the array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the pipeline fetched it there or
    the block index has not moved since the last fetch. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole buffer -/

abbrev rQ : Rect S256x128x32 := Rect.unit (s := S256x128x32) ![0, 0, 0] S256x128x32.size inb_S256x128x32_S256x128x32_0_0_0
abbrev rS : Rect S256x128 := Rect.unit (s := S256x128) ![0, 0] S256x128.size inb_S256x128_S256x128_0_0
abbrev rU : Rect S256x16 := Rect.unit (s := S256x16) ![0, 0] S256x16.size inb_S256x16_S256x16_0_0
abbrev rD : Rect S16x4096 := Rect.unit (s := S16x4096) ![0, 0] S16x4096.size inb_S16x4096_S16x4096_0_0
abbrev rW : Rect S256x4096 := Rect.unit (s := S256x4096) ![0, 0] S256x4096.size inb_S256x4096_S256x4096_0_0

/-- What the body leaves in the output's staging buffer, from the four input blocks: its one store. -/
def out0_4 (x0 : Vec F S256x128x32 .i32) (x1 : Vec F S256x128 .f32) (x2 : Vec F S256x16 .f32) (x3 : Vec F S16x4096 .f32) : Vec F S256x4096 .bf16 :=
  View.canon [⟨rW, k0_pay1 (View.ld x0 rQ) (View.ld x1 rS) (View.ld x2 rU) (View.ld x3 rD)⟩]

/-- The one store covers the buffer. -/
theorem cover0_4 (p0 : Vec F S256x4096 .bf16) (y : S256x4096.Idx) :
    ∃ pc ∈ ([⟨rW, p0⟩] : List (View.Piece (Elt F) S256x4096 .bf16)), y ∈ pc.1.set :=
  View.cover_of_tiled [⟨rW, p0⟩] S256x4096.size (by rfl) y

/-! ## The body's triple -/

set_option maxHeartbeats 1000000 in
/-- On whole staging memrefs, the inputs' at contents `x0 … x3` and the output's at anything, the body runs to
    its continuation holding the inputs' as they were and the output's at `out0_4` of them. -/
theorem sound_kernel0 (c : Dev nD) (E : Set ℕ) (i : grid0.Coords)
    (arg1 : Memref sig .tc .vmem S256x128x32 .i32) (harg1 : arg1.IsWhole) (arg2 : Memref sig .tc .vmem S256x128 .f32) (harg2 : arg2.IsWhole)
    (arg3 : Memref sig .tc .vmem S256x16 .f32) (harg3 : arg3.IsWhole) (arg4 : Memref sig .tc .vmem S16x4096 .f32) (harg4 : arg4.IsWhole)
    (arg5 : Memref sig .tc .vmem S256x4096 .bf16) (harg5 : arg5.IsWhole)
    (x0 : Vec F S256x128x32 .i32) (x1 : Vec F S256x128 .f32) (x2 : Vec F S256x16 .f32) (x3 : Vec F S16x4096 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0_dequant_lora_kernel i arg1 harg1 arg2 harg2 arg3 harg3 arg4 harg4 arg5 harg5) K := by
  simp only [cc0_dequant_lora_kernel_eq_skeleton]; unfold cc0_dequant_lora_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The pipeline's proof data -/

/-- Pipeline 0's proof data on core `c`: the arrays as the region finds them; after the body at point `t` each
    input's buffer still at its block and the output's at `out0_4` of the four blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) :
    (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' buffers hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KI.MatmulCases.lean ====
/-
  Region 1 of @main, the blocked matrix product on its 16 × 4 × 4 grid (row block, column block, contraction
  block; the contraction block runs fastest): what its three control cases share. The body resets its accumulator
  when the contraction block is 0, adds one block product at every point, and when the contraction block is 3
  adds the bias row and stores the output block. So a point is in case A (contraction block 0), B (1 or 2) or
  C (3). Stated here: the windows' blocks at the entry contents `V`, the two branch conditions in closed form over
  the grid, where the output window is idle, the staging and scratch memrefs the runs are stated over.
-/
import proofs.«109840_j44985487458785_1_alg».proof.Proof.Gen.KernelIdeal.Launch
import proofs.«109840_j44985487458785_1_alg».proof.Proof.Gen.KernelIdeal.Skeleton
import proofs.«109840_j44985487458785_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- "The contraction block is 0": the condition under which the body resets its accumulator. -/
abbrev cond1_0 (i : grid1.Coords) : Prop := (Scalar.cmpi .ne (Scalar.extui (Scalar.cmpi .eq (BitVec.ofNat 32 (i 2).val) 0#32)) 0#32) = 1#1
/-- It holds at the points ≡ 0 (mod 4). -/
theorem hcond1_0 : ∀ t : Fin cfg1.N, cond1_0 (grid1.coords t) ↔ t.val % 4 = 0 :=
  (by decide +kernel : ∀ t : Fin grid1.N, cond1_0 (grid1.coords t) ↔ t.val % 4 = 0)

/-- "The contraction block is 3": the condition under which the body adds the bias and stores the output block. -/
abbrev cond1_1 (i : grid1.Coords) : Prop := k1_cond2 i = 1#1
/-- It holds at the points ≡ 3 (mod 4). -/
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- In cases A and B the body stores nothing into the output window and the pipeline does not write its block back. -/
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- In case C the output window is live: the body stores its block. -/
theorem liveAt1_3_C : ∀ t : Fin cfg1.N, ¬cond1_0 (grid1.coords t) → cond1_1 (grid1.coords t) → cfg1.idle 3 (grid1.coords t) = false := by decide +kernel

/-! ## The memrefs the runs are stated over -/

/-- One staging buffer of the output window, through which its contents are stated. -/
abbrev VO1_3 : View sig .tc .vmem S1024x1024 .f32 := (Memref.whole cc1_stg3_0 : Memref sig .tc .vmem S1024x1024 .f32).view
/-- Each window's current staging memref at point `t`, as the pipeline passes it to the body, and its wholeness. -/
abbrev ms1_0 (t : Fin cfg1.N) : Memref sig .tc .vmem S1024x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1_0 : Memref sig .tc .vmem S1024x1024 .f32 := Memref.whole cc1_scratch0
/-- The accumulator as a view: what it holds is stated through it. -/
abbrev VS1_0 : View sig .tc .vmem S1024x1024 .f32 := scM1_0.view

/-- The region's resting invariant with the accumulator as a memref owned at some contents: the other regions'
    staging buffers at anything, the accumulator at anything, the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ d, owns (c : Thread nD τ) scM1_0 fullShare d)) ∗ (∃ r, prngReg c r)) := by
  unfold Pipeline.ΦA; rw [scopedRest1_eq]; simp only [scM1_0, owns_whole]; try rfl

/-- Region 0's staging buffers, each whole at some contents: scoped memory this region never touches. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- The resting invariant opened: region 0's staging buffers, the accumulator at some contents, the generator register. -/
theorem PhiA1_open (c : Dev nD) :
    (Pipeline.ΦA spec1 c : sProp 𝕄) ⊢ iprop(others1 (F := F) c ∗ (∃ d, owns (c : Thread nD τ) scM1_0 fullShare d) ∗ (∃ r, prngReg c r)) := by
  rw [PhiA1_eq]; unfold others1
  iintro ⟨⟨R0, R1, R2, R3, R4, R5, R6, R7, R8, HS⟩, Hg⟩
  isplitl [R0 R1 R2 R3 R4 R5 R6 R7 R8]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    iexact R8
  isplitl [HS]; · iexact HS
  iexact Hg

/-- And closed again. -/
theorem PhiA1_close (c : Dev nD) :
    iprop(others1 (F := F) c ∗ (∃ d, owns (c : Thread nD τ) scM1_0 fullShare d) ∗ (∃ r, prngReg c r)) ⊢ (Pipeline.ΦA spec1 c : sProp 𝕄) := by
  rw [PhiA1_eq]; unfold others1
  iintro ⟨⟨R0, R1, R2, R3, R4, R5, R6, R7, R8⟩, HS, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    iexact HS
  iexact Hg

end Cert.KernelIdeal.Frame

end
-- ==== Proof.KI.MatmulRunA.lean ====
/-
  The blocked matrix product's body in case A (contraction block 0): it stores zeros over the whole accumulator,
  loads the row block of the left operand and the block of the right operand, reads the accumulator back, adds their
  product and stores the sum over the whole accumulator; it neither loads the bias nor stores into the output
  window. The pieces the accumulator ends with are found by running the body.
-/
import proofs.«109840_j44985487458785_1_alg».proof.Proof.KI.MatmulCases

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case A's triple on whole staging memrefs: the three inputs at their contents and the output's buffer at `xi3` are
    handed back untouched, the accumulator — at anything before — ends with the pieces `LS0` written (last first). -/
noncomputable def kernelRun1_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1_matmul_kernel i arg3 harg3 arg4 harg4 arg5 harg5 arg6 harg6 arg7 harg7) K } := by
  refine ⟨[], ?_, fun xi3 E K => ?run⟩
  case run =>
    simp only [cc1_matmul_kernel_eq_skeleton]; unfold cc1_matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Frame

end
-- ==== Proof.KI.MatmulRunB.lean ====
/-
  The blocked matrix product's body in case B (contraction block 1 or 2): it loads the two operand blocks, reads
  the accumulator — holding what the point before left, `xs0` —, adds the block product and stores the sum over the
  whole accumulator; nothing else is stored.
-/
import proofs.«109840_j44985487458785_1_alg».proof.Proof.KI.MatmulRunA

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case B's triple: inputs and the output's buffer handed back untouched, the accumulator from `xs0` to the pieces `LS0`. -/
noncomputable def kernelRun1_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2
                ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1_matmul_kernel i arg3 harg3 arg4 harg4 arg5 harg5 arg6 harg6 arg7 harg7) K } := by
  refine ⟨[], ?_, fun xi3 E K => ?run⟩
  case run =>
    simp only [cc1_matmul_kernel_eq_skeleton]; unfold cc1_matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Frame

end
-- ==== Proof.KI.MatmulRunC.lean ====
/-
  The blocked matrix product's body in case C (contraction block 3): as in case B the accumulator goes from what the
  point before left, `xs0`, to that plus the block product; then the body reads it back, loads the bias row,
  adds it to every row and stores the result over the whole output block.
-/
import proofs.«109840_j44985487458785_1_alg».proof.Proof.KI.MatmulRunB

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case C's triple: inputs handed back untouched, the output's buffer — at anything before — with the pieces `L3`
    written, the accumulator from `xs0` to the pieces `LS0`. -/
noncomputable def kernelRun1_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc1_matmul_kernel i arg3 harg3 arg4 harg4 arg5 harg5 arg6 harg6 arg7 harg7) K } := by
  refine ⟨?_, ?_, fun E K => ?run⟩
  case run =>
    simp only [cc1_matmul_kernel_eq_skeleton]; unfold cc1_matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2
    obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Frame

end
-- ==== Proof.KI.Matmul.lean ====
/-
  Region 1 of @main, the blocked matrix product, at the buffer contents `V` it is entered with: what each control
  case leaves in the output block and in the accumulator (the pieces the runs found, read back), what both hold after
  every grid point by recursion on the point — the accumulator of a point in case B or C builds on what the point before
  left —, the region's invariant carrying the accumulator's contents from point to point, the pipeline's proof data and
  the obligation at every grid point. Generic in the float instance.
-/
import proofs.«109840_j44985487458785_1_alg».proof.Proof.KI.MatmulRunC

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- Case A stores nothing into the output window: a placeholder nothing consults (the window is idle there). -/
def out1_A_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i) (x0 : Vec F S1024x1024 .f32) (x1 : Vec F S1024x1024 .bf16) (x2 : Vec F S1x1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)

/-- Case A's pieces cover the accumulator. -/
theorem scover1_A_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i) (x0 : Vec F S1024x1024 .f32) (x1 : Vec F S1024x1024 .bf16) (x2 : Vec F S1x1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y

/-- What case A leaves in the accumulator. -/
def sout1_A_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i) (x0 : Vec F S1024x1024 .f32) (x1 : Vec F S1024x1024 .bf16) (x2 : Vec F S1x1024 .f32) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).2.1)

/-- Case B stores nothing into the output window either. -/
def out1_B_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i) (x0 : Vec F S1024x1024 .f32) (x1 : Vec F S1024x1024 .bf16) (x2 : Vec F S1x1024 .f32) (xs0 : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs0).1)

theorem scover1_B_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i) (x0 : Vec F S1024x1024 .f32) (x1 : Vec F S1024x1024 .bf16) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y

/-- What case B leaves in the accumulator, over what the point before left (`xs0`). -/
def sout1_B_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i) (x0 : Vec F S1024x1024 .f32) (x1 : Vec F S1024x1024 .bf16) (x2 : Vec F S1x1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- Case C's one store covers the output block. -/
theorem cover1_C_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x1024 .f32) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y

/-- What case C leaves in the output's staging buffer. -/
def out1_C_3 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x1024 .f32) (x1 : Vec F S1024x1024 .bf16) (x2 : Vec F S1x1024 .f32) (xs0 : Vec F S1024x1024 .f32) : Vec F S1024x1024 .f32 :=
  VO1_3.read (Elt F) (VO1_3.writes (Elt F) VO1_3.junk (kernelRun1_C c i arg3 harg3 arg4 harg4 arg5 harg5 arg6 harg6 arg7 harg7 hc0 hc1 x0 x1 x2 xs0).1)

theorem scover1_C_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x1024 .f32) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y

/-- What case C leaves in the accumulator, over what the point before left. -/
def sout1_C_0 (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x1024 .f32) (x1 : Vec F S1024x1024 .bf16) (x2 : Vec F S1x1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

/-! ## What the output's buffer and the accumulator hold after each point -/

/-- After the body at position `n`: (the output's staging buffer, the accumulator) — the case the closed forms select at
    `n`, run at the point's memrefs and input blocks, the accumulator of cases B and C over what position `n - 1` left. -/
def outsAt1 (c : Dev nD) : (n : ℕ) → n < cfg1.N → Vec F S1024x1024 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At a point of case A. -/
theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- At a point of case B: over what the point before left. -/
theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point of case C: over what the point before left. -/
theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region's invariant -/

/-- Before position `n`: at the first point the resting invariant (the accumulator at anything); afterwards region 0's
    staging buffers, the accumulator at what the point before left, the generator register at some state. -/
def PhiS (c : Dev nD) : (n : ℕ) → n ≤ cfg1.N → sProp 𝕄
  | 0, _ => Pipeline.ΦA spec1 c
  | n + 1, hn => iprop(others1 (F := F) c ∗ owns (c : Thread nD τ) scM1_0 fullShare ((outsAt1 V c n hn).2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(others1 (F := F) c ∗ owns (c : Thread nD τ) scM1_0 fullShare ((outsAt1 V c n hn).2) ∗ (∃ r, prngReg c r)) := rfl

theorem PhiS_pos (c : Dev nD) (n : ℕ) (h : n ≤ cfg1.N) (hz : n ≠ 0) :
    PhiS V c n h = iprop(others1 (F := F) c ∗ owns (c : Thread nD τ) scM1_0 fullShare ((outsAt1 V c (n - 1) (by omega)).2) ∗ (∃ r, prngReg c r)) := by
  cases n with
  | zero => exact absurd rfl hz
  | succ n => rfl

/-! ## The pipeline's proof data -/

/-- Pipeline 1's proof data on core `c`: the arrays as the region finds them; after the body at point `t` each input's
    buffer still at its block and the output's at `outsAt1`'s first component; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) :
    (dat1 V c).leavesExact 2 t = owns (c : Thread nD τ) (ms1_2 t) fullShare (iblk1 V c 2 t) := by
  unfold Dat.leavesExact; rw [liveAt1_2 t, after1_2]

set_option maxHeartbeats 4800000 in
/-- The body at any point: the inputs' buffers hold their blocks; the closed forms say which case the point is in;
    the invariant hands the body the accumulator at what the point before left (at anything at the first point) and
    takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [leaves1_0, leaves1_1, leaves1_2]
  have hN : t.val < 256 := lt_of_lt_of_eq t.isLt (show cfg1.N = 256 from N_1)
  by_cases h0 : t.val % 4 = 0
  · by_cases h1 : t.val % 4 = 3
    · exfalso; omega
    · rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS_castSucc V c t, PhiS_zero V c _ _ hz]
        iintro ⟨HΦ, Ho, ⟨%d0, H0⟩, ⟨%d1, H1⟩, ⟨%d2, H2⟩, ⟨%d3, H3⟩⟩
        ihave HΦ' := (PhiA1_open (F := F) c) $$ HΦ
        icases HΦ' with ⟨Hoth, HS0, Hg⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg Hoth]
        · isplitl [Hoth]; · iexact Hoth
          isplitl [HS0]
          · unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS_castSucc V c t, PhiS_pos V c _ _ hz]
        iintro ⟨⟨Hoth, HS0, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hg Hoth]
        · isplitl [Hoth]; · iexact Hoth
          isplitl [HS0]
          · unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · have hz : t.val ≠ 0 := fun hz => h0 (by rw [hz])
    by_cases h1 : t.val % 4 = 3
    · rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      rw [PhiS_castSucc V c t, PhiS_pos V c _ _ hz]
      iintro ⟨⟨Hoth, HS0, Hg⟩, Ho, ⟨%d0, H0⟩, ⟨%d1, H1⟩, ⟨%d2, H2⟩, ⟨%d3, H3⟩⟩
      iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg Hoth]
      · isplitl [Hoth]; · iexact Hoth
        isplitl [HS0]
        · unfold owns; iexists _; isplitr
          swap; · iexact HS0
          ipureintro; exact View.read_writes_of_cover _ _ _ _ _ (scover1_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      rw [PhiS_castSucc V c t, PhiS_pos V c _ _ hz]
      iintro ⟨⟨Hoth, HS0, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg Hoth]
      · isplitl [Hoth]; · iexact Hoth
        isplitl [HS0]
        · unfold owns; iexists _; isplitr
          swap; · iexact HS0
          ipureintro; exact View.read_writes_of_cover _ _ _ _ _ (scover1_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point but the first the invariant gives the resting one back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht]
  have hforget : (iprop(others1 (F := F) c ∗ owns (c : Thread nD τ) scM1_0 fullShare ((outsAt1 V c (t.val - 1) (by omega)).2) ∗ (∃ r, prngReg c r)) : sProp 𝕄)
      ⊢ iprop(others1 (F := F) c ∗ (∃ d, owns (c : Thread nD τ) scM1_0 fullShare d) ∗ (∃ r, prngReg c r)) := by
    iintro ⟨Hoth, HS0, Hg⟩
    isplitl [Hoth]; · iexact Hoth
    isplitl [HS0]; · iexists _; iexact HS0
    iexact Hg
  exact hforget.trans (PhiA1_close (F := F) c)

/-- The same after the last point. -/
theorem hout1 (c : Dev nD) : (dat1 V c).Φ (Fin.last cfg1.N) ⊢ Pipeline.ΦA spec1 c :=
  Phi_out1 V c _ (by rw [Fin.val_last]; have : cfg1.N = 256 := N_1; omega)

end Cert.KernelIdeal.Frame

end
-- ==== Proof.KI.Segments.lean ====
/-
  The whole run of @main: the first kernel region, two reshapes on the host, the second kernel region, one more
  reshape. Stated here: core `c`'s buffer contents at each boundary as a fold from the launch memory (a region leaves
  its arrays at what its write-backs add up to and every other buffer as it found it; a host stretch leaves what its
  operations compute), each pipeline's proof data at its region's entry contents, the two regions as segments over the
  thread state "every unscoped buffer at the boundary's contents, the generator register at some state, nothing owed",
  and the launch: every weakly fair execution terminates and every unscoped buffer ends at the last boundary's contents.
  The six argument arrays walk back through the fold to their launch contents. Generic in the float instance.
-/
import proofs.«109840_j44985487458785_1_alg».proof.Proof.KI.Dequant
import proofs.«109840_j44985487458785_1_alg».proof.Proof.KI.Matmul
import proofs.«109840_j44985487458785_1_alg».proof.Proof.Gen.KernelIdeal.Regions

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch: region 0's entry. -/
abbrev W0 : Dev nD → Valuation τ sig (Elt F) := fun c b => (s₀ m ρ).mem ((c : Dev nD), b)
/-- The same read at the TensorCore's references. -/
abbrev U0 : (c : Dev nD) → (b : Ref sig .tc) → Buf (Elt F) ((c : Thread nD τ).loc b) := fun c b => W0 m ρ c b
/-- At region 0's exit: its arrays at what the pipeline leaves, every other buffer as entered. -/
def W1 (c : Dev nD) : Valuation τ sig (Elt F) :=
  Pipeline.withArrays spec0 c (W0 m ρ c) fun w => (dat0 (U0 m ρ) c).arrAt w cfg0.N
theorem W1_arr (c : Dev nD) (w : Fin cfg0.W) :
    W1 m ρ c (Proc.devRef .tc (Pipeline.arrRef spec0 w)) = (dat0 (U0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev U1 : (c : Dev nD) → (b : Ref sig .tc) → Buf (Elt F) ((c : Thread nD τ).loc b) := fun c b => W1 m ρ c b
theorem hF0 (c : Dev nD) (w : Fin cfg0.W) : (dat0 (U0 m ρ) c).arrAt w cfg0.N = U1 m ρ c (Pipeline.arrRef spec0 w) :=
  (W1_arr m ρ c w).symm
theorem hrest0 (c : Dev nD) : ∀ b, b ∉ Finset.univ.image (Pipeline.arrRef spec0) → U1 m ρ c b = U0 m ρ c b :=
  fun b hb => W1_of_ne m ρ c b fun w e => hb (Finset.mem_image.mpr ⟨w, Finset.mem_univ _, e⟩)

/-- After the two reshapes: region 1's entry. -/
abbrev W2 : Dev nD → Valuation τ sig (Elt F) := fun c => StableHlo.after hostOps1 (W1 m ρ c)
abbrev U2 : (c : Dev nD) → (b : Ref sig .tc) → Buf (Elt F) ((c : Thread nD τ).loc b) := fun c b => W2 m ρ c b
/-- At region 1's exit. -/
def W3 (c : Dev nD) : Valuation τ sig (Elt F) :=
  Pipeline.withArrays spec1 c (W2 m ρ c) fun w => (dat1 (U2 m ρ) c).arrAt w cfg1.N
theorem W3_arr (c : Dev nD) (w : Fin cfg1.W) :
    W3 m ρ c (Proc.devRef .tc (Pipeline.arrRef spec1 w)) = (dat1 (U2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev U3 : (c : Dev nD) → (b : Ref sig .tc) → Buf (Elt F) ((c : Thread nD τ).loc b) := fun c b => W3 m ρ c b
theorem hF1 (c : Dev nD) (w : Fin cfg1.W) : (dat1 (U2 m ρ) c).arrAt w cfg1.N = U3 m ρ c (Pipeline.arrRef spec1 w) :=
  (W3_arr m ρ c w).symm
theorem hrest1 (c : Dev nD) : ∀ b, b ∉ Finset.univ.image (Pipeline.arrRef spec1) → U3 m ρ c b = U2 m ρ c b :=
  fun b hb => W3_of_ne m ρ c b fun w e => hb (Finset.mem_image.mpr ⟨w, Finset.mem_univ _, e⟩)

/-- After the last reshape: the end. -/
abbrev W4 : Dev nD → Valuation τ sig (Elt F) := fun c => StableHlo.after hostOps2 (W3 m ρ c)

/-! ## The arguments end as launched -/

theorem W2_of (c : Dev nD) (r : Ref sig .tc) (h : r ∉ (hostOps1_W : List (Ref sig .tc))) : W2 m ρ c (Proc.devRef .tc r) = W1 m ρ c (Proc.devRef .tc r) :=
  StableHlo.after_of_writes_sub hostOps1 _ hostOps1_writes h
theorem W4_of (c : Dev nD) (r : Ref sig .tc) (h : r ∉ (hostOps2_W : List (Ref sig .tc))) : W4 m ρ c (Proc.devRef .tc r) = W3 m ρ c (Proc.devRef .tc r) :=
  StableHlo.after_of_writes_sub hostOps2 _ hostOps2_writes h

theorem W4_main_arg0 (c : Dev nD) : W4 m ρ c (Proc.devRef .tc main_arg0) = m ((c : Thread nD τ).loc main_arg0) :=
  (W4_of m ρ c main_arg0 (by decide)).trans <| (W3_of_ne m ρ c main_arg0 (by decide)).trans <| (W2_of m ρ c main_arg0 (by decide)).trans <|
    (W1_arr m ρ c 0).trans (((dat0 (U0 m ρ) c).arrAt_in 0 rfl _).trans (A_eq0 (U0 m ρ) c 0))
theorem W4_main_arg1 (c : Dev nD) : W4 m ρ c (Proc.devRef .tc main_arg1) = m ((c : Thread nD τ).loc main_arg1) :=
  (W4_of m ρ c main_arg1 (by decide)).trans <| (W3_of_ne m ρ c main_arg1 (by decide)).trans <| (W2_of m ρ c main_arg1 (by decide)).trans <|
    (W1_arr m ρ c 1).trans (((dat0 (U0 m ρ) c).arrAt_in 1 rfl _).trans (A_eq0 (U0 m ρ) c 1))
theorem W4_main_arg2 (c : Dev nD) : W4 m ρ c (Proc.devRef .tc main_arg2) = m ((c : Thread nD τ).loc main_arg2) :=
  (W4_of m ρ c main_arg2 (by decide)).trans <| (W3_of_ne m ρ c main_arg2 (by decide)).trans <| (W2_of m ρ c main_arg2 (by decide)).trans <|
    (W1_arr m ρ c 2).trans (((dat0 (U0 m ρ) c).arrAt_in 2 rfl _).trans (A_eq0 (U0 m ρ) c 2))
theorem W4_main_arg3 (c : Dev nD) : W4 m ρ c (Proc.devRef .tc main_arg3) = m ((c : Thread nD τ).loc main_arg3) :=
  (W4_of m ρ c main_arg3 (by decide)).trans <| (W3_of_ne m ρ c main_arg3 (by decide)).trans <| (W2_of m ρ c main_arg3 (by decide)).trans <|
    (W1_arr m ρ c 3).trans (((dat0 (U0 m ρ) c).arrAt_in 3 rfl _).trans (A_eq0 (U0 m ρ) c 3))
theorem W4_main_arg4 (c : Dev nD) : W4 m ρ c (Proc.devRef .tc main_arg4) = m ((c : Thread nD τ).loc main_arg4) :=
  (W4_of m ρ c main_arg4 (by decide)).trans <| (W3_of_ne m ρ c main_arg4 (by decide)).trans <| (W2_of m ρ c main_arg4 (by decide)).trans <|
    (W1_of_ne m ρ c main_arg4 (by decide))
theorem W4_main_arg5 (c : Dev nD) : W4 m ρ c (Proc.devRef .tc main_arg5) = m ((c : Thread nD τ).loc main_arg5) :=
  (W4_of m ρ c main_arg5 (by decide)).trans <| (W3_of_ne m ρ c main_arg5 (by decide)).trans <| (W2_of m ρ c main_arg5 (by decide)).trans <|
    (W1_of_ne m ρ c main_arg5 (by decide))

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (U0 m ρ) c
  | ⟨1, _⟩ => fun c => dat1 (U2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the end's contents, the generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from the launch contents, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (U0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (U0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (U0 m ρ c) (U1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from `W2`, left at `W3`. Its invariant starts and ends at the resting
    one (the accumulator's contents are the region's own business). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (U2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (U2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (U2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hrest : (iprop((∃ r, prngReg c r) ∗ Pipeline.ownSems0 (Ix := Unit) (Name := ℕ) (U := UR sig nD τ) (Lvl := ℕ) (fun k : PEmpty => k.elim) c ∗ Pipeline.scopedRest (Ix := Unit) (Name := ℕ) (U := UR sig nD τ) (Lvl := ℕ) (Val := Elt F) spec1 c) : sProp 𝕄)
        ⊢ Pipeline.ΦA spec1 c := by
      unfold Pipeline.ΦA
      iintro ⟨Hp, -, Hr⟩
      isplitl [Hr]; · iexact Hr
      iexact Hp
    exact hrest.trans (hin1 (U2 m ρ) c)
  hout c := by
    rw [Pipeline.ownSems0_none]
    have hrest : (Pipeline.ΦA spec1 c : sProp 𝕄) ⊢ iprop((∃ r, prngReg c r) ∗ emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact (hout1 (U2 m ρ) c).trans hrest
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (U2 m ρ c) (U3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ),
    .host (hseg hostOps2 hostOps2_sub hostOps2_fresh (W3 m ρ)) ]
theorem main_run (c : Dev nD) : main (F := F) c = Pipeline.Seg.run (segs m ρ) := (main_chain c).trans (by chain_rfl)

/-- The last thread state, regrouped: the buffers with the generator register, and the core owing nothing. -/
theorem last_state (c : Dev nD) :
    (iprop(StableHlo.held (c : Thread nD τ) (Pipeline.ucRefs τ sig) (W4 m ρ c) ∗ R c) : sProp 𝕄)
      ⊢ iprop(Tₙ m ρ c ∗ ∃ W, owes (c : Thread nD τ) (0 : CellTallies nD τ sig Unit) W) := by
  iintro ⟨Hh, Hp, HO⟩
  isplitl [Hh Hp]
  · isplitl [Hh]; · iexact Hh
    iexact Hp
  iexact HO

set_option backward.isDefEq.respectTransparency.types false in
/-- THE RUN: from any memory with zero counters every weakly fair execution of @main terminates, nothing faulting,
    and every unscoped buffer of every core ends at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => last_state m ρ c⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every weakly fair execution terminates, nothing faulting, and the six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c)⟩) (run_all m ρ)

end Cert.KernelIdeal.Frame

end
-- ==== Proof.Spec.lean ====
/-
  What both programs compute, on the extended reals, as functions of the six argument arrays.
  The quantised weight holds one 32-bit word per entry, in groups of 32 consecutive columns sharing one scale:
  entry (o, j) of the weight is  scale(o, j / 32) · (word(o, j / 32, j % 32) − 128)  plus one half of the
  rank-16 product  ∑ r, up(o, r) · down(r, j).  The layer's output at (b, s, n) is the inner product of row (b, s)
  of the activations with row n of that weight, plus bias(n). The constants 128 and one half are kept as the
  float patterns both programs print; nothing here evaluates them.
-/
import Idealize.ShloMosaic.PureOps.Ideal
import Idealize.ShloMosaic.Lib.ValueIdx

noncomputable section

open scoped BigOperators

namespace Cert.Spec

open Idealize.ShloMosaic Idealize.ShloMosaic.ValueIdx

/-- The group of 32 columns a column falls in. -/
def grp (j : Fin 4096) : Fin 128 := ⟨j.val / 32, by omega⟩
/-- A column's place inside its group. -/
def lane (j : Fin 4096) : Fin 32 := ⟨j.val % 32, by omega⟩

/-- The pattern of 128.0 and of 0.5 as extended reals. -/
abbrev c128 : EReal := Ideal.ofBits .f32 0x43000000#32
abbrev chalf : EReal := Ideal.ofBits .f32 0x3F000000#32

/-- Entry (o, j) of the dequantised, patched weight. -/
def weight (q : Vec Ideal ⟨3, ![4096, 128, 32]⟩ .i32) (sc : FVec Ideal ⟨2, ![4096, 128]⟩ .f32)
    (up : FVec Ideal ⟨2, ![4096, 16]⟩ .f32) (dn : FVec Ideal ⟨2, ![16, 4096]⟩ .f32) (o j : Fin 4096) : EReal :=
  sc (ix2 o (grp j)) * (FloatOps.sitofp (F := Ideal) .f32 (q (ix3 o (grp j) (lane j))) - c128)
    + chalf * ∑ r : Fin 16, up (ix2 o r) * dn (ix2 r j)

/-- The layer's output at (b, s, n) for a weight `W`. -/
def linear (x : FVec Ideal ⟨3, ![8, 2048, 4096]⟩ .f32) (W : Fin 4096 → Fin 4096 → EReal) (bias : FVec Ideal ⟨1, ![4096]⟩ .f32)
    (b : Fin 8) (s : Fin 2048) (n : Fin 4096) : EReal :=
  (∑ i : Fin 4096, x (ix3 b s i) * W n i) + bias (ix1 n)

/-- The whole result array. -/
def result (q : Vec Ideal ⟨3, ![4096, 128, 32]⟩ .i32) (sc : FVec Ideal ⟨2, ![4096, 128]⟩ .f32)
    (up : FVec Ideal ⟨2, ![4096, 16]⟩ .f32) (dn : FVec Ideal ⟨2, ![16, 4096]⟩ .f32) (bias : FVec Ideal ⟨1, ![4096]⟩ .f32)
    (x : FVec Ideal ⟨3, ![8, 2048, 4096]⟩ .f32) : FVec Ideal ⟨3, ![8, 2048, 4096]⟩ .f32 :=
  fun j => linear x (weight q sc up dn) bias (j 0) (j 1) (j 2)

/-- The same output on the flattened activations: at (m, n), row m of the 16384 × 4096 matrix against row n of `W`
    (a 1 × 4096 bias row). This is the form the second kernel region produces. -/
def linearFlat (x : FVec Ideal ⟨2, ![16384, 4096]⟩ .f32) (W : FVec Ideal ⟨2, ![4096, 4096]⟩ .bf16) (bias : FVec Ideal ⟨2, ![1, 4096]⟩ .f32) :
    FVec Ideal ⟨2, ![16384, 4096]⟩ .f32 :=
  fun j => (∑ i : Fin 4096, x (ix2 (j 0) i) * W (ix2 (j 1) i)) + bias (ix2 0 (j 1))

/-- The weight as the 4096 × 4096 array the first kernel region produces. -/
def weightArr (q : Vec Ideal ⟨3, ![4096, 128, 32]⟩ .i32) (sc : FVec Ideal ⟨2, ![4096, 128]⟩ .f32)
    (up : FVec Ideal ⟨2, ![4096, 16]⟩ .f32) (dn : FVec Ideal ⟨2, ![16, 4096]⟩ .f32) : FVec Ideal ⟨2, ![4096, 4096]⟩ .bf16 :=
  fun j => weight q sc up dn (j 0) (j 1)

end Cert.Spec

end
-- ==== Proof.DequantValue.lean ====
/-
  The first kernel region's result as a function of the four arrays it reads. The body's arithmetic, read at
  one entry (p, j) of a 256 × 4096 block: the scale of the group of 32 columns that j falls in, times the
  quantised word at (p, j / 32, j % 32) converted and shifted by 128, plus one half of the rank-16 product
  ∑ r, up(p, r) · down(r, j); format changes are the identity on the extended reals and the product into a
  zero accumulator is the bare sum. Then from blocks to the array: the block at grid point t is rows
  256 t … 256 t + 255 of each array (all of the right factor), so what point t writes back is block t of the
  4096 × 4096 weight of the specification, and the sixteen blocks cover the array.
-/
import proofs.«109840_j44985487458785_1_alg».proof.Proof.KI.Dequant
import proofs.«109840_j44985487458785_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.DequantValue

open Cert.KernelIdeal Cert.KernelIdeal.Gen Cert.KernelIdeal.Frame
open Idealize.ShloMosaic Idealize.ShloMosaic.TcCoe Idealize.ShloMosaic.ValueIdx
open Idealize.SL.Sem
open Idealize.ShloMosaic.Pipeline (Dat Cfg Window)
open Cert.Spec (grp lane c128 chalf weight weightArr)

/-! ## The body's arithmetic at one entry -/

/-- The regrouping [256, 128, 32] → [256, 4096] read at (p, j): the operand at (p, j / 32, j % 32). -/
theorem regroup_apply {α : Type} (y : S256x128x32.Idx → α) (p : Fin 256) (j : Fin 4096) :
    shapeCast S256x4096 y shapeCasts_S256x128x32_S256x4096 (ix2 p j) = y (ix3 p (grp j) (lane j)) :=
  shapeCast_apply y shapeCasts_S256x128x32_S256x4096 (ix2 p j) (ix3 p (grp j) (lane j))
    (by rewrite [Shape.rowMajor_val_three, Shape.rowMajor_val_two]
        have hp : p.val < 256 := p.isLt
        have hj : j.val < 4096 := j.isLt
        show (p.val * 128 + j.val / 32) * 32 + j.val % 32 = p.val * 4096 + j.val
        omega)

/-- A trailing unit axis added, [256, 128] → [256, 128, 1], read at (p, g, u): the operand at (p, g). -/
theorem addLast_apply {α : Type} (y : S256x128.Idx → α) (p : Fin 256) (g : Fin 128) (u : Fin 1) :
    shapeCast S256x128x1 y shapeCasts_S256x128_S256x128x1 (ix3 p g u) = y (ix2 p g) :=
  shapeCast_apply y shapeCasts_S256x128_S256x128x1 (ix3 p g u) (ix2 p g)
    (by rewrite [Shape.rowMajor_val_three, Shape.rowMajor_val_two]
        have hu : u.val = 0 := by omega
        show p.val * 128 + g.val = (p.val * 128 + g.val) * 1 + u.val
        omega)

/-- The unit axis spread over a group's 32 places, [256, 128, 1] → [256, 128, 32], read at (p, g, l): the operand
    at (p, g, 0). -/
theorem spread_apply {α : Type} (y : S256x128x1.Idx → α) (p : Fin 256) (g : Fin 128) (l : Fin 32) :
    broadcastTo S256x128x32 y broadcasts_S256x128x1_S256x128x32 (ix3 p g l) = y (ix3 p g (0 : Fin 1)) := by
  refine broadcastTo_apply y broadcasts_S256x128x1_S256x128x32 (ix3 p g l) (ix3 p g (0 : Fin 1)) fun ax => ?_
  match ax with
  | ⟨0, _⟩ => show p.val = if (256 : Nat) = 1 then 0 else p.val; rw [if_neg (by decide)]
  | ⟨1, _⟩ => show g.val = if (128 : Nat) = 1 then 0 else g.val; rw [if_neg (by decide)]
  | ⟨2, _⟩ => show 0 = if (1 : Nat) = 1 then 0 else l.val; rw [if_pos rfl]

/-- The rank-16 product's left operand index at (i, q), axis 0: the output's row. -/
theorem patch_lhs_0 (i : S256x4096.Idx) (q : Cert.KernelIdeal.dot_S256x16_S16x4096_S256x4096_1_0_0_1_n_n.contr.Idx) :
    (Cert.KernelIdeal.dot_S256x16_S16x4096_S256x4096_1_0_0_1_n_n.lhsIdx i q 0).val = (i 0).val := by
  unfold DotDims.lhsIdx
  rw [dif_neg (show ¬(0 : Fin S256x16.rank) ∈ Cert.KernelIdeal.dot_S256x16_S16x4096_S256x4096_1_0_0_1_n_n.lhsBatch by decide), dif_pos (show (0 : Fin S256x16.rank) ∈ Cert.KernelIdeal.dot_S256x16_S16x4096_S256x4096_1_0_0_1_n_n.lhsNonContracting by decide)]
  rfl
/-- Axis 1: the contraction coordinate. -/
theorem patch_lhs_1 (i : S256x4096.Idx) (q : Cert.KernelIdeal.dot_S256x16_S16x4096_S256x4096_1_0_0_1_n_n.contr.Idx) :
    (Cert.KernelIdeal.dot_S256x16_S16x4096_S256x4096_1_0_0_1_n_n.lhsIdx i q 1).val = (q ⟨0, by decide⟩).val :=
  Cert.KernelIdeal.dot_S256x16_S16x4096_S256x4096_1_0_0_1_n_n.lhsIdx_val_of_single rfl i q
/-- The right operand index at (i, q), axis 0: the contraction coordinate. -/
theorem patch_rhs_0 (i : S256x4096.Idx) (q : Cert.KernelIdeal.dot_S256x16_S16x4096_S256x4096_1_0_0_1_n_n.contr.Idx) :
    (Cert.KernelIdeal.dot_S256x16_S16x4096_S256x4096_1_0_0_1_n_n.rhsIdx i q 0).val = (q ⟨0, by decide⟩).val :=
  Cert.KernelIdeal.dot_S256x16_S16x4096_S256x4096_1_0_0_1_n_n.rhsIdx_val_of_single rfl i q
/-- Axis 1: the output's column. -/
theorem patch_rhs_1 (i : S256x4096.Idx) (q : Cert.KernelIdeal.dot_S256x16_S16x4096_S256x4096_1_0_0_1_n_n.contr.Idx) :
    (Cert.KernelIdeal.dot_S256x16_S16x4096_S256x4096_1_0_0_1_n_n.rhsIdx i q 1).val = (i 1).val := by
  unfold DotDims.rhsIdx
  rw [dif_neg (show ¬(1 : Fin S16x4096.rank) ∈ Cert.KernelIdeal.dot_S256x16_S16x4096_S256x4096_1_0_0_1_n_n.rhsBatch by decide), dif_pos (show (1 : Fin S16x4096.rank) ∈ Cert.KernelIdeal.dot_S256x16_S16x4096_S256x4096_1_0_0_1_n_n.rhsNonContracting by decide)]
  rfl

/-- The product of a 256 × 16 by a 16 × 4096 matrix into a zero accumulator, read at (p, j): the sum over the
    16 inner places. -/
theorem patch_apply (l : FVec Ideal S256x16 .bf16) (r : FVec Ideal S16x4096 .bf16) (p : Fin 256) (j : Fin 4096) :
    matmul Cert.KernelIdeal.dot_S256x16_S16x4096_S256x4096_1_0_0_1_n_n none l r (constant (F := Ideal) S256x4096 .f32 0x00000000#32) (ix2 p j)
      = ∑ k : Fin 16, l (ix2 p k) * r (ix2 k j) := by
  simp only [matmul]
  rw [Ideal.matmul_constant_zero_apply, ← Equiv.sum_comp (ValueIdx.contrEquiv1 Cert.KernelIdeal.dot_S256x16_S16x4096_S256x4096_1_0_0_1_n_n 16 rfl rfl).symm]
  refine Finset.sum_congr rfl fun k _ => ?_
  have hk := ValueIdx.contrEquiv1_symm_val Cert.KernelIdeal.dot_S256x16_S16x4096_S256x4096_1_0_0_1_n_n 16 rfl rfl k
  have el : Cert.KernelIdeal.dot_S256x16_S16x4096_S256x4096_1_0_0_1_n_n.lhsIdx (ix2 p j) ((ValueIdx.contrEquiv1 Cert.KernelIdeal.dot_S256x16_S16x4096_S256x4096_1_0_0_1_n_n 16 rfl rfl).symm k) = ix2 p k := funext fun a => Fin.ext (by
    match a with
    | ⟨0, _⟩ => exact patch_lhs_0 _ _
    | ⟨1, _⟩ => exact (patch_lhs_1 _ _).trans hk)
  have er : Cert.KernelIdeal.dot_S256x16_S16x4096_S256x4096_1_0_0_1_n_n.rhsIdx (ix2 p j) ((ValueIdx.contrEquiv1 Cert.KernelIdeal.dot_S256x16_S16x4096_S256x4096_1_0_0_1_n_n 16 rfl rfl).symm k) = ix2 k j := funext fun a => Fin.ext (by
    match a with
    | ⟨0, _⟩ => exact (patch_rhs_0 _ _).trans hk
    | ⟨1, _⟩ => exact patch_rhs_1 _ _)
  rw [el, er]

/-- THE BODY'S VALUE AT (p, j), from the four loaded blocks: the group's scale times the shifted word, plus half the
    rank-16 product. -/
theorem pay_apply (x0 : Vec Ideal S256x128x32 .i32) (x1 : FVec Ideal S256x128 .f32) (x2 : FVec Ideal S256x16 .f32)
    (x3 : FVec Ideal S16x4096 .f32) (p : Fin 256) (j : Fin 4096) :
    k0_pay1 (F := Ideal) x0 x1 x2 x3 (ix2 p j)
      = x1 (ix2 p (grp j)) * (FloatOps.sitofp (F := Ideal) .f32 (x0 (ix3 p (grp j) (lane j))) - c128)
        + chalf * ∑ r : Fin 16, x2 (ix2 p r) * x3 (ix2 r j) := by
  unfold k0_pay1
  rw [truncf_apply, addf_apply, regroup_apply, mulf_apply, spread_apply, addLast_apply, subf_apply, sitofp_apply,
    broadcast_apply, mulf_apply, broadcast_apply, patch_apply]
  rfl

/-! ## From blocks to the array -/

variable (V : (c : Dev nD) → (b : Ref sig .tc) → Buf (Elt Ideal) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- The block indices over the grid: at point t the words', the scales', the left factor's and the weight's block is
    row block t; the right factor's is the whole array. -/
theorem block_index : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The words' block at point t, read at (p, g, l): the array at row 256 t + p. -/
theorem words_block (c : Dev nD) (t : Fin cfg0.N) (p : Fin 256) (g : Fin 128) (l : Fin 32) (o : Fin 4096)
    (ho : o.val = t.val * 256 + p.val) :
    (iblk0 V c 0 t : Vec Ideal S256x128x32 .i32) (ix3 p g l) = (V c main_arg0 : Vec Ideal S4096x128x32 .i32) (ix3 o g l) := by
  obtain ⟨e0, e1, e2, -⟩ := block_index t
  unfold iblk0
  rw [View.read_apply]
  show V c main_arg0 _ = V c main_arg0 _
  congr 1
  funext a
  apply Fin.ext
  match a with
  | ⟨0, _⟩ => show win0_0.index t (0 : Fin 3) * 256 + 1 * p.val = o.val; omega
  | ⟨1, _⟩ => show win0_0.index t (1 : Fin 3) * 128 + 1 * g.val = g.val; omega
  | ⟨2, _⟩ => show win0_0.index t (2 : Fin 3) * 32 + 1 * l.val = l.val; omega

/-- The scales' block at point t, read at (p, g): the array at row 256 t + p. -/
theorem scales_block (c : Dev nD) (t : Fin cfg0.N) (p : Fin 256) (g : Fin 128) (o : Fin 4096)
    (ho : o.val = t.val * 256 + p.val) :
    (iblk0 V c 1 t : FVec Ideal S256x128 .f32) (ix2 p g) = (V c main_arg1 : FVec Ideal S4096x128 .f32) (ix2 o g) := by
  obtain ⟨-, -, -, e0, e1, -⟩ := block_index t
  unfold iblk0
  rw [View.read_apply]
  show V c main_arg1 _ = V c main_arg1 _
  congr 1
  funext a
  apply Fin.ext
  match a with
  | ⟨0, _⟩ => show win0_1.index t (0 : Fin 2) * 256 + 1 * p.val = o.val; omega
  | ⟨1, _⟩ => show win0_1.index t (1 : Fin 2) * 128 + 1 * g.val = g.val; omega

/-- The left factor's block at point t, read at (p, r): the array at row 256 t + p. -/
theorem up_block (c : Dev nD) (t : Fin cfg0.N) (p : Fin 256) (r : Fin 16) (o : Fin 4096)
    (ho : o.val = t.val * 256 + p.val) :
    (iblk0 V c 2 t : FVec Ideal S256x16 .f32) (ix2 p r) = (V c main_arg2 : FVec Ideal S4096x16 .f32) (ix2 o r) := by
  obtain ⟨-, -, -, -, -, e0, e1, -⟩ := block_index t
  unfold iblk0
  rw [View.read_apply]
  show V c main_arg2 _ = V c main_arg2 _
  congr 1
  funext a
  apply Fin.ext
  match a with
  | ⟨0, _⟩ => show win0_2.index t (0 : Fin 2) * 256 + 1 * p.val = o.val; omega
  | ⟨1, _⟩ => show win0_2.index t (1 : Fin 2) * 16 + 1 * r.val = r.val; omega

/-- The right factor's block at every point, read at (r, j): the array there. -/
theorem down_block (c : Dev nD) (t : Fin cfg0.N) (r : Fin 16) (j : Fin 4096) :
    (iblk0 V c 3 t : FVec Ideal S16x4096 .f32) (ix2 r j) = (V c main_arg3 : FVec Ideal S16x4096 .f32) (ix2 r j) := by
  obtain ⟨-, -, -, -, -, -, -, e0, e1, -⟩ := block_index t
  unfold iblk0
  rw [View.read_apply]
  show V c main_arg3 _ = V c main_arg3 _
  congr 1
  funext a
  apply Fin.ext
  match a with
  | ⟨0, _⟩ => show win0_3.index t (0 : Fin 2) * 16 + 1 * r.val = r.val; omega
  | ⟨1, _⟩ => show win0_3.index t (1 : Fin 2) * 4096 + 1 * j.val = j.val; omega

/-- One entry of a block whose four inputs are the arrays' rows: the specification's weight at that row. -/
theorem block_entry (q : Vec Ideal S4096x128x32 .i32) (sc : FVec Ideal S4096x128 .f32) (up : FVec Ideal S4096x16 .f32)
    (dn : FVec Ideal S16x4096 .f32) (x0 : Vec Ideal S256x128x32 .i32) (x1 : FVec Ideal S256x128 .f32)
    (x2 : FVec Ideal S256x16 .f32) (x3 : FVec Ideal S16x4096 .f32) (o : Fin 4096) (p : Fin 256) (j : Fin 4096)
    (h0 : ∀ g l, x0 (ix3 p g l) = q (ix3 o g l)) (h1 : ∀ g, x1 (ix2 p g) = sc (ix2 o g))
    (h2 : ∀ r, x2 (ix2 p r) = up (ix2 o r)) (h3 : ∀ r, x3 (ix2 r j) = dn (ix2 r j)) :
    k0_pay1 (F := Ideal) x0 x1 x2 x3 (ix2 p j) = weight q sc up dn o j := by
  rw [pay_apply, h0, h1]
  unfold weight
  congr 2
  exact Finset.sum_congr rfl fun r _ => by rw [h2, h3]

/-- WHAT POINT t WRITES BACK is block t of the specification's weight of the four arrays as the region finds them. -/
theorem flushed_eq (c : Dev nD) (t : Fin cfg0.N) :
    (dat0 V c).flushed 4 t
      = ((cfg0.win 4).blk t).view.read (Elt Ideal) (weightArr (V c main_arg0) (V c main_arg1) (V c main_arg2) (V c main_arg3)) := by
  show (cfg0.win 4).cut (grid0.coords t) ((dat0 V c).after 4 t) = _
  rw [after0_4]
  unfold out0_4
  rw [View.canon_unit_zero hz2]
  simp only [View.ld_unit_zero (S := S256x128x32) hz3, View.ld_unit_zero (S := S256x128) hz2, View.ld_unit_zero (S := S256x16) hz2,
    View.ld_unit_zero (S := S16x4096) hz2]
  obtain ⟨-, -, -, -, -, -, -, -, -, e0, e1⟩ := block_index t
  funext y
  have hp : (y 0).val < 256 := (y 0).isLt
  have hj : (y 1).val < 4096 := (y 1).isLt
  have ht : t.val < 16 := t.isLt
  have hy : (cfg0.win 4).xinj (grid0.coords t) y = ix2 (⟨(y 0).val, hp⟩ : Fin 256) (⟨(y 1).val, hj⟩ : Fin 4096) := by
    funext a
    match a with
    | ⟨0, _⟩ => rfl
    | ⟨1, _⟩ => rfl
  show k0_pay1 (F := Ideal) (iblk0 V c 0 t) (iblk0 V c 1 t) (iblk0 V c 2 t) (iblk0 V c 3 t) ((cfg0.win 4).xinj (grid0.coords t) y) = _
  rw [hy, View.read_apply]
  show _ = weightArr (V c main_arg0) (V c main_arg1) (V c main_arg2) (V c main_arg3) (((cfg0.win 4).blk t).view.emb y)
  have ho : t.val * 256 + (y 0).val < 4096 := by omega
  have hi : ((cfg0.win 4).blk t).view.emb y = ix2 (⟨t.val * 256 + (y 0).val, ho⟩ : Fin 4096) (⟨(y 1).val, hj⟩ : Fin 4096) := by
    funext a
    apply Fin.ext
    match a with
    | ⟨0, _⟩ => show win0_4.index t (0 : Fin 2) * 256 + 1 * (y 0).val = t.val * 256 + (y 0).val; omega
    | ⟨1, _⟩ => show win0_4.index t (1 : Fin 2) * 4096 + 1 * (y 1).val = (y 1).val; omega
  rw [hi]
  show _ = weight (V c main_arg0) (V c main_arg1) (V c main_arg2) (V c main_arg3) ⟨t.val * 256 + (y 0).val, ho⟩ ⟨(y 1).val, hj⟩
  exact block_entry _ _ _ _ _ _ _ _ _ _ _ (fun g l => words_block V c t _ g l _ rfl) (fun g => scales_block V c t _ g _ rfl)
    (fun r => up_block V c t _ r _ rfl) (fun r => down_block V c t r _)

/-- An index of the weight array is in point t's block iff each coordinate is in the block's range on its axis. -/
theorem mem_block (t : Fin cfg0.N) (i : S4096x4096.Idx) :
    i ∈ ((cfg0.win 4).blk t).view.set ↔ ∀ a : Fin 2, win0_4.index t a * S256x4096.size a ≤ (i a).val ∧ (i a).val < win0_4.index t a * S256x4096.size a + S256x4096.size a := by
  show i ∈ ((View.whole main_v0).slice (win0_4.rect t)).set ↔ _
  rw [View.set_slice_whole, Rect.mem_set_unit]
  exact Iff.rfl

/-- Every entry of the weight array is in some point's block: row r is in the block of point r / 256. -/
theorem covered (i : S4096x4096.Idx) :
    ∃ t : Fin cfg0.N, (cfg0.win 4).flush t = true ∧ i ∈ ((cfg0.win 4).blk t).view.set := by
  have hi0 : (i 0).val < 4096 := (i 0).isLt
  have hi1 : (i 1).val < 4096 := (i 1).isLt
  have hN : cfg0.N = 16 := rfl
  let t : Fin cfg0.N := ⟨(i 0).val / 256, by rw [hN]; omega⟩
  obtain ⟨-, -, -, -, -, -, -, -, -, e0, e1⟩ := block_index t
  have ht : t.val = (i 0).val / 256 := rfl
  refine ⟨t, flush0_4 t, ?_⟩
  rw [mem_block]
  intro a
  match a with
  | ⟨0, _⟩ => show win0_4.index t (0 : Fin 2) * 256 ≤ (i 0).val ∧ (i 0).val < win0_4.index t (0 : Fin 2) * 256 + 256; omega
  | ⟨1, _⟩ => show win0_4.index t (1 : Fin 2) * 4096 ≤ (i 1).val ∧ (i 1).val < win0_4.index t (1 : Fin 2) * 4096 + 4096; omega

/-- THE WEIGHT ARRAY after the first region: the specification's weight of the four arrays the region is entered with. -/
theorem weight_arr (c : Dev nD) :
    (dat0 V c).arrAt 4 cfg0.N = weightArr (V c main_arg0) (V c main_arg1) (V c main_arg2) (V c main_arg3) :=
  (dat0 V c).arrAt_eq_of_cover 4 (weightArr (V c main_arg0) (V c main_arg1) (V c main_arg2) (V c main_arg3))
    (fun t _ => flushed_eq V c t) covered

end Cert.KernelIdeal.DequantValue

end
-- ==== Proof.MatmulValue.lean ====
/-
  The value of region 1, the blocked matrix product, at the ideal instance: after the run its output array holds, at
  (m, n), the inner product over all 4096 columns of row m of the left operand with row n of the right operand, plus
  the bias row at n. The accumulator after the point with contraction block k holds the partial inner product over
  the blocks 0 … k (block 0 starts from the zeros just stored); the point with contraction block 3 adds the bias and
  stores the block, and those are exactly the points whose block is written back. Over the extended reals the four
  partial sums, added in order from zero, are the one sum over all columns: only that addition is associative and
  has zero as unit is used, so no finiteness enters.
-/
import proofs.«109840_j44985487458785_1_alg».proof.Proof.KI.Matmul
import proofs.«109840_j44985487458785_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.MatmulValue

open Cert.KernelIdeal Cert.KernelIdeal.Gen Cert.KernelIdeal.Frame
open Idealize.ShloMosaic Idealize.ShloMosaic.TcCoe Idealize.ShloMosaic.Tactic Idealize.ShloMosaic.ValueIdx
open Idealize.SL.Sem
open Idealize.ShloMosaic.Pipeline (Dat)

variable {F : FTy → Type} [FloatOps F]

theorem hz : (![0, 0] : Fin 2 → Nat) = fun _ => 0 := funext fun a => by fin_cases a <;> rfl

/-! ## What each case's pieces read back as -/

/-- Case A leaves the block product added to the zeros it stored first. -/
theorem acc_A (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .f32) (x1 : Vec F S1024x1024 .bf16) (x2 : Vec F S1x1024 .f32) :
    sout1_A_0 c i arg3 harg3 arg4 harg4 arg5 harg5 arg6 harg6 arg7 harg7 hc0 hc1 x0 x1 x2 = k1_pay2 x0 x1 (k1_pay1 (F := F)) := by
  unfold sout1_A_0
  rw [View.read_writes_eq_canon _ _ _ (scover1_A_0 c i arg3 harg3 arg4 harg4 arg5 harg5 arg6 harg6 arg7 harg7 hc0 hc1 x0 x1 x2)]
  unfold kernelRun1_A
  dsimp only
  sl_unfold_words
  rw [View.canon_cons_unit_zero (S := S1024x1024) hz, View.readCov_unit_zero (S := S1024x1024) _ hz]
  simp only [View.readAt_eq_ld, harg3.read_unread, harg4.read_unread, View.ld_unit_zero (S := S1024x1024) hz]

/-- Case B leaves the block product added to what the accumulator held. -/
theorem acc_B (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .f32) (x1 : Vec F S1024x1024 .bf16) (x2 : Vec F S1x1024 .f32) (xs0 : Vec F S1024x1024 .f32) :
    sout1_B_0 c i arg3 harg3 arg4 harg4 arg5 harg5 arg6 harg6 arg7 harg7 hc0 hc1 x0 x1 x2 xs0 = k1_pay2 x0 x1 xs0 := by
  unfold sout1_B_0
  rw [View.read_writes_eq_canon _ _ _ (scover1_B_0 c i arg3 harg3 arg4 harg4 arg5 harg5 arg6 harg6 arg7 harg7 hc0 hc1 x0 x1 x2 xs0)]
  unfold kernelRun1_B
  dsimp only
  sl_unfold_words
  rw [View.canon_unit_zero hz]
  simp only [View.readAt_eq_ld, harg3.read_unread, harg4.read_unread, harg7.read_unread, View.ld_unit_zero (S := S1024x1024) hz]

/-- So does case C, in the accumulator; -/
theorem acc_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) :
    sout1_C_0 c i arg3 harg3 arg4 harg4 arg5 harg5 arg6 harg6 arg7 harg7 hc0 hc1 x0 x1 x2 xs0 = k1_pay2 x0 x1 xs0 := by
  unfold sout1_C_0
  rw [View.read_writes_eq_canon _ _ _ (scover1_C_0 c i arg3 harg3 arg4 harg4 arg5 harg5 arg6 harg6 arg7 harg7 hc0 hc1 x0 x1 x2 xs0)]
  unfold kernelRun1_C
  dsimp only
  sl_unfold_words
  rw [View.canon_unit_zero hz]
  simp only [View.readAt_eq_ld, harg3.read_unread, harg4.read_unread, harg7.read_unread, View.ld_unit_zero (S := S1024x1024) hz]

/-- and in the output block it leaves that sum with the bias row added to every row. -/
theorem out_C (c : Dev nD) (i : grid1.Coords) (arg3 : Memref sig .tc .vmem S1024x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .f32) (x1 : Vec F S1024x1024 .bf16) (x2 : Vec F S1x1024 .f32) (xs0 : Vec F S1024x1024 .f32) :
    out1_C_3 c i arg3 harg3 arg4 harg4 arg5 harg5 arg6 harg6 arg7 harg7 hc0 hc1 x0 x1 x2 xs0 = k1_pay3 (k1_pay2 x0 x1 xs0) x2 := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  sl_unfold_words
  rw [View.canon_unit_zero hz, View.readCov_unit_zero (S := S1024x1024) _ hz]
  simp only [View.readAt_eq_ld, harg3.read_unread, harg4.read_unread, harg5.read_unread, harg7.read_unread,
    View.ld_unit_zero (S := S1024x1024) hz, View.ld_unit_zero (S := S1x1024) hz]

/-! ## The payloads at an index, on the extended reals -/

/-- The zeros. -/
theorem pay1_apply (j : S1024x1024.Idx) : k1_pay1 (F := Ideal) j = 0 := by
  unfold k1_pay1
  simp only [shapeCast_self]
  show Ideal.ofBits .f32 0x00000000#32 = 0
  exact Ideal.ofBits_zero_f32

theorem lhs_0 (i : S1024x1024.Idx) (q : dot_S1024x1024_S1024x1024_S1024x1024_1_1_0_0_n_n.contr.Idx) : (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide), dif_pos (show (0 : Fin S1024x1024.rank) ∈ dot_S1024x1024_S1024x1024_S1024x1024_1_1_0_0_n_n.lhsNonContracting by decide)]
  rfl
theorem lhs_1 (i : S1024x1024.Idx) (q : dot_S1024x1024_S1024x1024_S1024x1024_1_1_0_0_n_n.contr.Idx) : (dot_S1024x1024_S1024x1024_S1024x1024_1_1_0_0_n_n.lhsIdx i q 1).val = (q ⟨0, by decide⟩).val :=
  dot_S1024x1024_S1024x1024_S1024x1024_1_1_0_0_n_n.lhsIdx_val_of_single rfl i q
theorem rhs_0 (i : S1024x1024.Idx) (q : dot_S1024x1024_S1024x1024_S1024x1024_1_1_0_0_n_n.contr.Idx) : (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide), dif_pos (show (0 : Fin S1024x1024.rank) ∈ dot_S1024x1024_S1024x1024_S1024x1024_1_1_0_0_n_n.rhsNonContracting by decide)]
  rfl
theorem rhs_1 (i : S1024x1024.Idx) (q : dot_S1024x1024_S1024x1024_S1024x1024_1_1_0_0_n_n.contr.Idx) : (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- One accumulation step at (p, q): what was there plus the inner product of row p of the left block with row q of the
    right block. -/
theorem pay2_apply (x : FVec Ideal S1024x1024 .f32) (w : FVec Ideal S1024x1024 .bf16) (s : FVec Ideal S1024x1024 .f32) (p q : Fin 1024) :
    k1_pay2 (F := Ideal) x w s (ix2 p q) = s (ix2 p q) + ∑ k : Fin 1024, x (ix2 p k) * w (ix2 q k) := by
  unfold k1_pay2
  simp only [shapeCast_self, matmul]
  rw [addf_apply, Ideal.matmul_constant_zero_apply, ← Equiv.sum_comp (contrEquiv1 dot_S1024x1024_S1024x1024_S1024x1024_1_1_0_0_n_n 1024 rfl rfl).symm]
  refine congrArg (s (ix2 p q) + ·) (Finset.sum_congr rfl fun k _ => ?_)
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k := funext fun a => Fin.ext (by
    match a with
    | ⟨0, _⟩ => exact lhs_0 _ _
    | ⟨1, _⟩ => exact (lhs_1 _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k := funext fun a => Fin.ext (by
    match a with
    | ⟨0, _⟩ => exact rhs_0 _ _
    | ⟨1, _⟩ => exact (rhs_1 _ _).trans hk)
  rw [el, er]
  rfl

/-- The last step at (p, q): the bias row's entry q added. -/
theorem pay3_apply (s : FVec Ideal S1024x1024 .f32) (b : FVec Ideal S1x1024 .f32) (p q : Fin 1024) :
    k1_pay3 (F := Ideal) s b (ix2 p q) = s (ix2 p q) + b (ix2 0 q) := by
  unfold k1_pay3
  simp only [shapeCast_self]
  rw [addf_apply]
  exact congrArg (s (ix2 p q) + ·) (broadcastTo_1b_ab_apply b broadcasts_S1x1024_S1024x1024 p q)

/-! ## A sum over 4096 columns is the four sums over its 1024-blocks, in order from zero -/

theorem sum_blocks (f : Fin 4096 → EReal) :
    ∑ i, f i = (((0 + ∑ k : Fin 1024, f ⟨0 * 1024 + k.val, by omega⟩) + ∑ k : Fin 1024, f ⟨1 * 1024 + k.val, by omega⟩)
      + ∑ k : Fin 1024, f ⟨2 * 1024 + k.val, by omega⟩) + ∑ k : Fin 1024, f ⟨3 * 1024 + k.val, by omega⟩ := by
  let e : Fin 4 × Fin 1024 ≃ Fin 4096 :=
    { toFun := fun x => ⟨x.1.val * 1024 + x.2.val, by have := x.1.isLt; have := x.2.isLt; omega⟩
      invFun := fun i => (⟨i.val / 1024, by have := i.isLt; omega⟩, ⟨i.val % 1024, by omega⟩)
      left_inv := fun x => Prod.ext (Fin.ext (by have := x.1.isLt; have := x.2.isLt; show (x.1.val * 1024 + x.2.val) / 1024 = x.1.val; omega))
        (Fin.ext (by have := x.1.isLt; have := x.2.isLt; show (x.1.val * 1024 + x.2.val) % 1024 = x.2.val; omega))
      right_inv := fun i => Fin.ext (by show i.val / 1024 * 1024 + i.val % 1024 = i.val; omega) }
  rw [← Equiv.sum_comp e f, Fintype.sum_prod_type, Fin.sum_univ_four, zero_add]
  rfl

/-! ## The blocks, read off the arrays -/

variable (V : (c : Dev nD) → (b : Ref sig .tc) → Buf (Elt Ideal) ((c : Thread nD τ).loc b))

/-- The printed index maps, decided over the grid: point t has row block t / 16, column block t / 4 % 4 and
    contraction block t % 4; the left operand's block is (row block, contraction block), the right operand's
    (column block, contraction block), the bias row's (0, column block), the output's (row block, column block). -/
theorem idx_facts : ∀ t : Fin cfg1.N, win1_0.index t (0 : Fin 2) = t.val / 16 ∧ win1_0.index t (1 : Fin 2) = t.val % 4
    ∧ win1_1.index t (0 : Fin 2) = t.val / 4 % 4 ∧ win1_1.index t (1 : Fin 2) = t.val % 4
    ∧ win1_2.index t (0 : Fin 2) = 0 ∧ win1_2.index t (1 : Fin 2) = t.val / 4 % 4
    ∧ win1_3.index t (0 : Fin 2) = t.val / 16 ∧ win1_3.index t (1 : Fin 2) = t.val / 4 % 4 :=
  (by decide +kernel : ∀ t : Fin grid1.N, _)

/-- The three arrays region 1 reads, as the region finds them, at their literal types: the flattened activations, the
    weight the first region produced, the bias as one row. -/
abbrev xarr (c : Dev nD) : FVec Ideal S16384x4096 .f32 := V c main_v1
abbrev warr (c : Dev nD) : FVec Ideal S4096x4096 .bf16 := V c main_v0
abbrev barr (c : Dev nD) : FVec Ideal S1x4096 .f32 := V c main_v2

/-- Entry (p, k) of the left operand's block at a point with row block `ro` and contraction block `kb`. -/
theorem xblk_apply (c : Dev nD) (t : Fin cfg1.N) (ro : Fin 16) (kb : ℕ) (hkb : kb < 4) (hro : t.val / 16 = ro.val) (hk : t.val % 4 = kb)
    (p k : Fin 1024) :
    (iblk1 V c 0 t : Vec Ideal S1024x1024 .f32) (ix2 p k)
      = xarr V c (ix2 (⟨ro.val * 1024 + p.val, by omega⟩ : Fin 16384) (⟨kb * 1024 + k.val, by omega⟩ : Fin 4096)) := by
  obtain ⟨e0, e1, -⟩ := idx_facts t
  unfold iblk1
  rw [View.read_apply]
  show V c main_v1 _ = V c main_v1 _
  refine congrArg (V c main_v1) (funext fun a => Fin.ext ?_)
  match a with
  | ⟨0, _⟩ => show win1_0.index t (0 : Fin 2) * 1024 + 1 * p.val = ro.val * 1024 + p.val; rw [e0, hro]; omega
  | ⟨1, _⟩ => show win1_0.index t (1 : Fin 2) * 1024 + 1 * k.val = kb * 1024 + k.val; rw [e1, hk]; omega

/-- Entry (q, k) of the right operand's block at a point with column block `co` and contraction block `kb`. -/
theorem wblk_apply (c : Dev nD) (t : Fin cfg1.N) (co : Fin 4) (kb : ℕ) (hkb : kb < 4) (hco : t.val / 4 % 4 = co.val) (hk : t.val % 4 = kb)
    (q k : Fin 1024) :
    (iblk1 V c 1 t : Vec Ideal S1024x1024 .bf16) (ix2 q k)
      = warr V c (ix2 (⟨co.val * 1024 + q.val, by omega⟩ : Fin 4096) (⟨kb * 1024 + k.val, by omega⟩ : Fin 4096)) := by
  obtain ⟨-, -, e0, e1, -⟩ := idx_facts t
  unfold iblk1
  rw [View.read_apply]
  show V c main_v0 _ = V c main_v0 _
  refine congrArg (V c main_v0) (funext fun a => Fin.ext ?_)
  match a with
  | ⟨0, _⟩ => show win1_1.index t (0 : Fin 2) * 1024 + 1 * q.val = co.val * 1024 + q.val; rw [e0, hco]; omega
  | ⟨1, _⟩ => show win1_1.index t (1 : Fin 2) * 1024 + 1 * k.val = kb * 1024 + k.val; rw [e1, hk]; omega

/-- Entry (0, q) of the bias row's block at a point with column block `co`. -/
theorem bblk_apply (c : Dev nD) (t : Fin cfg1.N) (co : Fin 4) (hco : t.val / 4 % 4 = co.val) (q : Fin 1024) :
    (iblk1 V c 2 t : Vec Ideal S1x1024 .f32) (ix2 (0 : Fin 1) q)
      = barr V c (ix2 (0 : Fin 1) (⟨co.val * 1024 + q.val, by omega⟩ : Fin 4096)) := by
  obtain ⟨-, -, -, -, e0, e1, -⟩ := idx_facts t
  unfold iblk1
  rw [View.read_apply]
  show V c main_v2 _ = V c main_v2 _
  refine congrArg (V c main_v2) (funext fun a => Fin.ext ?_)
  match a with
  | ⟨0, _⟩ => show win1_2.index t (0 : Fin 2) * 1 + 1 * 0 = 0; rw [e0]
  | ⟨1, _⟩ => show win1_2.index t (1 : Fin 2) * 1024 + 1 * q.val = co.val * 1024 + q.val; rw [e1, hco]; omega

/-! ## The accumulator, contraction block by contraction block -/

/-- The inner product of row `ro · 1024 + p` of the left operand with row `co · 1024 + q` of the right operand over
    the columns of contraction block `kb`. -/
def psum (c : Dev nD) (ro : Fin 16) (co : Fin 4) (p q : Fin 1024) (kb : ℕ) (hkb : kb < 4) : EReal :=
  ∑ k : Fin 1024, xarr V c (ix2 (⟨ro.val * 1024 + p.val, by omega⟩ : Fin 16384) (⟨kb * 1024 + k.val, by omega⟩ : Fin 4096))
    * warr V c (ix2 (⟨co.val * 1024 + q.val, by omega⟩ : Fin 4096) (⟨kb * 1024 + k.val, by omega⟩ : Fin 4096))

/-- One accumulation step at a point: what the accumulator held at (p, q) plus that point's partial inner product. -/
theorem step_apply (c : Dev nD) (t : Fin cfg1.N) (ro : Fin 16) (co : Fin 4) (kb : ℕ) (hkb : kb < 4)
    (hro : t.val / 16 = ro.val) (hco : t.val / 4 % 4 = co.val) (hk : t.val % 4 = kb)
    (s : FVec Ideal S1024x1024 .f32) (p q : Fin 1024) :
    k1_pay2 (F := Ideal) (iblk1 V c 0 t) (iblk1 V c 1 t) s (ix2 p q) = s (ix2 p q) + psum V c ro co p q kb hkb := by
  rw [pay2_apply]
  refine congrArg (s (ix2 p q) + ·) (Finset.sum_congr rfl fun k _ => ?_)
  rw [xblk_apply V c t ro kb hkb hro hk p k, wblk_apply V c t co kb hkb hco hk q k]

theorem pred_facts (t : Fin cfg1.N) (h : t.val % 4 ≠ 0) :
    (t.val - 1) / 16 = t.val / 16 ∧ (t.val - 1) / 4 % 4 = t.val / 4 % 4 ∧ (t.val - 1) % 4 = t.val % 4 - 1 := by
  omega

/-- After a point with contraction block 0. -/
theorem acc0 (c : Dev nD) (t : Fin cfg1.N) (ro : Fin 16) (co : Fin 4) (hro : t.val / 16 = ro.val) (hco : t.val / 4 % 4 = co.val)
    (hk : t.val % 4 = 0) (p q : Fin 1024) :
    (outsAt1 V c t.val t.isLt).2 (ix2 p q) = 0 + psum V c ro co p q 0 (by omega) := by
  rw [outsAt1_A V c t hk (by omega)]
  dsimp only
  rw [acc_A, step_apply V c t ro co 0 (by omega) hro hco hk, pay1_apply]

/-- After a point with contraction block 1. -/
theorem acc1 (c : Dev nD) (t : Fin cfg1.N) (ro : Fin 16) (co : Fin 4) (hro : t.val / 16 = ro.val) (hco : t.val / 4 % 4 = co.val)
    (hk : t.val % 4 = 1) (p q : Fin 1024) :
    (outsAt1 V c t.val t.isLt).2 (ix2 p q) = (0 + psum V c ro co p q 0 (by omega)) + psum V c ro co p q 1 (by omega) := by
  obtain ⟨h1, h2, h3⟩ := pred_facts t (by omega)
  rw [outsAt1_B V c t (by omega) (by omega)]
  dsimp only
  rw [acc_B, step_apply V c t ro co 1 (by omega) hro hco hk]
  have hprev := acc0 V c ⟨t.val - 1, Nat.lt_of_le_of_lt (Nat.sub_le _ _) t.isLt⟩ ro co (by dsimp only; omega) (by dsimp only; omega) (by dsimp only; omega) p q
  exact congrArg (· + psum V c ro co p q 1 (by omega)) hprev

/-- After a point with contraction block 2. -/
theorem acc2 (c : Dev nD) (t : Fin cfg1.N) (ro : Fin 16) (co : Fin 4) (hro : t.val / 16 = ro.val) (hco : t.val / 4 % 4 = co.val)
    (hk : t.val % 4 = 2) (p q : Fin 1024) :
    (outsAt1 V c t.val t.isLt).2 (ix2 p q)
      = ((0 + psum V c ro co p q 0 (by omega)) + psum V c ro co p q 1 (by omega)) + psum V c ro co p q 2 (by omega) := by
  obtain ⟨h1, h2, h3⟩ := pred_facts t (by omega)
  rw [outsAt1_B V c t (by omega) (by omega)]
  dsimp only
  rw [acc_B, step_apply V c t ro co 2 (by omega) hro hco hk]
  have hprev := acc1 V c ⟨t.val - 1, Nat.lt_of_le_of_lt (Nat.sub_le _ _) t.isLt⟩ ro co (by dsimp only; omega) (by dsimp only; omega) (by dsimp only; omega) p q
  exact congrArg (· + psum V c ro co p q 2 (by omega)) hprev

/-- The output block after a point with contraction block 3: the four partial inner products added in order from zero,
    plus the bias. -/
theorem out3 (c : Dev nD) (t : Fin cfg1.N) (ro : Fin 16) (co : Fin 4) (hro : t.val / 16 = ro.val) (hco : t.val / 4 % 4 = co.val)
    (hk : t.val % 4 = 3) (p q : Fin 1024) :
    (outsAt1 V c t.val t.isLt).1 (ix2 p q)
      = ((((0 + psum V c ro co p q 0 (by omega)) + psum V c ro co p q 1 (by omega)) + psum V c ro co p q 2 (by omega))
          + psum V c ro co p q 3 (by omega))
        + barr V c (ix2 (0 : Fin 1) (⟨co.val * 1024 + q.val, by omega⟩ : Fin 4096)) := by
  obtain ⟨h1, h2, h3⟩ := pred_facts t (by omega)
  rw [outsAt1_C V c t (by omega) hk]
  dsimp only
  rw [out_C, pay3_apply, step_apply V c t ro co 3 (by omega) hro hco hk, bblk_apply V c t co hco q]
  have hprev := acc2 V c ⟨t.val - 1, Nat.lt_of_le_of_lt (Nat.sub_le _ _) t.isLt⟩ ro co (by dsimp only; omega) (by dsimp only; omega) (by dsimp only; omega) p q
  exact congrArg (fun z => (z + psum V c ro co p q 3 (by omega)) + barr V c (ix2 (0 : Fin 1) (⟨co.val * 1024 + q.val, by omega⟩ : Fin 4096))) hprev

/-! ## From the blocks to the array -/

/-- What a flushing point writes back is its block of the one whole-array function. -/
theorem flushed_eq (c : Dev nD) (t : Fin cfg1.N) (hf : (cfg1.win 3).flush t = true) :
    (dat1 V c).flushed 3 t
      = ((cfg1.win 3).blk t).view.read (Elt Ideal) (Cert.Spec.linearFlat (V c main_v1) (V c main_v0) (V c main_v2)) := by
  have hN : cfg1.N = 256 := N_1
  have hk : t.val % 4 = 3 := (flush1_3 t).mp hf
  have ht := t.isLt
  obtain ⟨-, -, -, -, -, -, e0, e1⟩ := idx_facts t
  show (cfg1.win 3).cut (grid1.coords t) ((dat1 V c).after 3 t) = _
  rw [after1_3]
  funext j
  obtain ⟨p, q, rfl⟩ : ∃ (p q : Fin 1024), j = ix2 p q := ⟨j 0, j 1, eq_ix2 j⟩
  show (outsAt1 V c t.val t.isLt).1 (ix2 p q) = Cert.Spec.linearFlat (V c main_v1) (V c main_v0) (V c main_v2) (((cfg1.win 3).blk t).view.emb (ix2 p q))
  have hemb : ((cfg1.win 3).blk t).view.emb (ix2 p q)
      = ix2 (⟨t.val / 16 * 1024 + p.val, by omega⟩ : Fin 16384) (⟨t.val / 4 % 4 * 1024 + q.val, by omega⟩ : Fin 4096) :=
    funext fun a => Fin.ext (by
      match a with
      | ⟨0, _⟩ => show win1_3.index t (0 : Fin 2) * 1024 + 1 * p.val = t.val / 16 * 1024 + p.val; rw [e0]; omega
      | ⟨1, _⟩ => show win1_3.index t (1 : Fin 2) * 1024 + 1 * q.val = t.val / 4 % 4 * 1024 + q.val; rw [e1]; omega)
  rw [hemb, out3 V c t ⟨t.val / 16, by omega⟩ ⟨t.val / 4 % 4, by omega⟩ rfl rfl hk p q]
  unfold Cert.Spec.linearFlat
  dsimp only
  rw [sum_blocks]
  rfl

/-- An index of the array is in point t's block iff each coordinate is in the block's range on its axis. -/
theorem mem_blk (t : Fin cfg1.N) (i : S16384x4096.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v3).slice (win1_3.rect t)).set ↔ _
  rw [View.set_slice_whole, Rect.mem_set_unit]
  exact Iff.rfl

/-- Every index (m, n) is in the block of the point with row block m / 1024, column block n / 1024 and contraction
    block 3, which is written back. -/
theorem cover (i : S16384x4096.Idx) : ∃ t : Fin cfg1.N, (cfg1.win 3).flush t = true ∧ i ∈ ((cfg1.win 3).blk t).view.set := by
  have hN : cfg1.N = 256 := N_1
  have hi0 : (i 0).val < 16384 := (i 0).isLt
  have hi1 : (i 1).val < 4096 := (i 1).isLt
  refine ⟨⟨(i 0).val / 1024 * 16 + (i 1).val / 1024 * 4 + 3, by omega⟩, (flush1_3 _).mpr (by dsimp only; omega), ?_⟩
  rw [mem_blk]
  obtain ⟨-, -, -, -, -, -, e0, e1⟩ := idx_facts ⟨(i 0).val / 1024 * 16 + (i 1).val / 1024 * 4 + 3, by omega⟩
  intro a
  match a with
  | ⟨0, _⟩ =>
    show win1_3.index _ (0 : Fin 2) * 1024 ≤ (i 0).val ∧ (i 0).val < win1_3.index _ (0 : Fin 2) * 1024 + 1024
    rw [e0]; dsimp only; omega
  | ⟨1, _⟩ =>
    show win1_3.index _ (1 : Fin 2) * 1024 ≤ (i 1).val ∧ (i 1).val < win1_3.index _ (1 : Fin 2) * 1024 + 1024
    rw [e1]; dsimp only; omega

/-- THE ARRAY after region 1: at (m, n) the inner product over all 4096 columns of row m of the left operand with row n
    of the right operand, plus the bias row at n. -/
theorem linear_arr (c : Dev nD) :
    (dat1 V c).arrAt 3 cfg1.N = Cert.Spec.linearFlat (V c main_v1) (V c main_v0) (V c main_v2) :=
  (dat1 V c).arrAt_eq_of_cover 3 _ (flushed_eq V c) cover

end Cert.KernelIdeal.MatmulValue

end
-- ==== Proof.Bridge.lean ====
/-
  The idealized kernel program's result, as a function of its six arguments. After the run the result buffer holds the
  last reshape of what the second region left; the second region left the flat layer output of the arrays it was
  entered with — the activations reshaped to 16384 × 4096, the weight the first region left, the bias reshaped to one
  row —; the first region left the patched weight of the four arrays it was entered with, which are the launch
  arguments. Reading the three reshapes at an index (row (b, s) of the activations is row b · 2048 + s of the flat
  matrix) gives the specification's result array.
-/
import proofs.«109840_j44985487458785_1_alg».proof.Proof.KI.Segments
import proofs.«109840_j44985487458785_1_alg».proof.Proof.DequantValue
import proofs.«109840_j44985487458785_1_alg».proof.Proof.MatmulValue
import proofs.«109840_j44985487458785_1_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

open scoped BigOperators

namespace Cert.KernelIdeal.Bridge

open Cert.KernelIdeal Cert.KernelIdeal.Gen Cert.KernelIdeal.Frame
open Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-! ## The three reshapes at an index -/

/-- Row b · 2048 + s of the flattened activations is row (b, s). -/
theorem flat_apply (x : FVec Ideal S8x2048x4096 .f32) (b : Fin 8) (s : Fin 2048) (i : Fin 4096) :
    shapeCast S16384x4096 x shapeCasts_S8x2048x4096_S16384x4096 (ix2 (⟨b.val * 2048 + s.val, by omega⟩ : Fin 16384) i) = x (ix3 b s i) :=
  shapeCast_apply x shapeCasts_S8x2048x4096_S16384x4096 _ (ix3 b s i)
    (by rewrite [Shape.rowMajor_val_three, Shape.rowMajor_val_two]; show (b.val * 2048 + s.val) * 4096 + i.val = (b.val * 2048 + s.val) * 4096 + i.val; rfl)

/-- And back: entry (b, s, n) of the reshaped output is entry (b · 2048 + s, n) of the flat one. -/
theorem unflat_apply (y : FVec Ideal S16384x4096 .f32) (b : Fin 8) (s : Fin 2048) (n : Fin 4096) :
    shapeCast S8x2048x4096 y shapeCasts_S16384x4096_S8x2048x4096 (ix3 b s n) = y (ix2 (⟨b.val * 2048 + s.val, by omega⟩ : Fin 16384) n) :=
  shapeCast_apply y shapeCasts_S16384x4096_S8x2048x4096 _ (ix2 (⟨b.val * 2048 + s.val, by omega⟩ : Fin 16384) n)
    (by rewrite [Shape.rowMajor_val_three, Shape.rowMajor_val_two]; show (b.val * 2048 + s.val) * 4096 + n.val = (b.val * 2048 + s.val) * 4096 + n.val; rfl)

/-- The bias as one row. -/
theorem biasrow_apply (bias : FVec Ideal S4096 .f32) (n : Fin 4096) :
    shapeCast S1x4096 bias shapeCasts_S4096_S1x4096 (ix2 (0 : Fin 1) n) = bias (ix1 n) :=
  shapeCast_a_1a_apply bias shapeCasts_S4096_S1x4096 (0 : Fin 1) n

/-! ## The buffers the regions are entered with -/

/-- The result buffer at the end is the reshape of what region 1 left. -/
theorem end_v4 (c : Dev nD) :
    (W4 m ρ c (Proc.devRef .tc main_v4) : FVec Ideal S8x2048x4096 .f32)
      = shapeCast S8x2048x4096 (W3 m ρ c (Proc.devRef .tc main_v3) : FVec Ideal S16384x4096 .f32) shapeCasts_S16384x4096_S8x2048x4096 := by
  show StableHlo.after hostOps2 (W3 m ρ c) (Proc.devRef .tc main_v4) = _
  after_results
  rfl

/-- Region 1 is entered with the activations reshaped flat, -/
theorem entry_v1 (c : Dev nD) :
    (U2 m ρ c main_v1 : FVec Ideal S16384x4096 .f32)
      = shapeCast S16384x4096 (m ((c : Thread nD τ).loc main_arg5) : FVec Ideal S8x2048x4096 .f32) shapeCasts_S8x2048x4096_S16384x4096 := by
  show StableHlo.after hostOps1 (W1 m ρ c) (Proc.devRef .tc main_v1) = _
  after_results
  rw [W1_of_ne m ρ c main_arg5 (by decide)]
  rfl

/-- the bias reshaped to one row, -/
theorem entry_v2 (c : Dev nD) :
    (U2 m ρ c main_v2 : FVec Ideal S1x4096 .f32)
      = shapeCast S1x4096 (m ((c : Thread nD τ).loc main_arg4) : FVec Ideal S4096 .f32) shapeCasts_S4096_S1x4096 := by
  show StableHlo.after hostOps1 (W1 m ρ c) (Proc.devRef .tc main_v2) = _
  after_results
  rw [W1_of_ne m ρ c main_arg4 (by decide)]
  rfl

/-- and the patched weight of the launch arguments, which is what region 0 left. -/
theorem entry_v0 (c : Dev nD) :
    (U2 m ρ c main_v0 : FVec Ideal S4096x4096 .bf16)
      = Cert.Spec.weightArr (m ((c : Thread nD τ).loc main_arg0)) (m ((c : Thread nD τ).loc main_arg1))
          (m ((c : Thread nD τ).loc main_arg2)) (m ((c : Thread nD τ).loc main_arg3)) := by
  show W2 m ρ c (Proc.devRef .tc main_v0) = _
  rw [W2_of m ρ c main_v0 (by decide), W1_arr m ρ c 4, Cert.KernelIdeal.DequantValue.weight_arr (U0 m ρ) c]

/-! ## The result -/

/-- The six launch arguments on core `c`, at their literal types. -/
abbrev qA (c : Dev nD) : Vec Ideal S4096x128x32 .i32 := m ((c : Thread nD τ).loc main_arg0)
abbrev scA (c : Dev nD) : FVec Ideal S4096x128 .f32 := m ((c : Thread nD τ).loc main_arg1)
abbrev upA (c : Dev nD) : FVec Ideal S4096x16 .f32 := m ((c : Thread nD τ).loc main_arg2)
abbrev dnA (c : Dev nD) : FVec Ideal S16x4096 .f32 := m ((c : Thread nD τ).loc main_arg3)
abbrev biA (c : Dev nD) : FVec Ideal S4096 .f32 := m ((c : Thread nD τ).loc main_arg4)
abbrev xA (c : Dev nD) : FVec Ideal S8x2048x4096 .f32 := m ((c : Thread nD τ).loc main_arg5)

/-- THE RESULT: after the run the result buffer holds the specification's array of the launch arguments. -/
theorem result_v4 (c : Dev nD) :
    (W4 m ρ c (Proc.devRef .tc main_v4) : FVec Ideal S8x2048x4096 .f32)
      = Cert.Spec.result (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  rw [end_v4, W3_arr m ρ c 3, Cert.KernelIdeal.MatmulValue.linear_arr (U2 m ρ) c, entry_v1, entry_v2, entry_v0]
  funext j
  obtain ⟨b, s, n, rfl⟩ : ∃ (b : Fin 8) (s : Fin 2048) (n : Fin 4096), j = ix3 b s n := ⟨j 0, j 1, j 2, eq_ix3 j⟩
  rw [unflat_apply]
  show (∑ i : Fin 4096, shapeCast S16384x4096 (xA m c) shapeCasts_S8x2048x4096_S16384x4096 (ix2 (⟨b.val * 2048 + s.val, by omega⟩ : Fin 16384) i)
        * Cert.Spec.weight (qA m c) (scA m c) (upA m c) (dnA m c) n i)
      + shapeCast S1x4096 (biA m c) shapeCasts_S4096_S1x4096 (ix2 (0 : Fin 1) n)
    = (∑ i : Fin 4096, xA m c (ix3 b s i) * Cert.Spec.weight (qA m c) (scA m c) (upA m c) (dnA m c) n i) + biA m c (ix1 n)
  rw [biasrow_apply]
  refine congrArg (· + _) (Finset.sum_congr rfl fun i _ => ?_)
  rw [flat_apply]

end Cert.KernelIdeal.Bridge

end
-- ==== Proof.RefValue.lean ====
/-
  The reference at the ideal instance computes `Cert.Spec.result` of its arguments.

  The host program builds the weight in two summands. The first reads the grouped array of words through a
  reshape: entry (o, j) of the 4096 × 4096 view is entry (o, j / 32, j % 32) of the 4096 × 128 × 32 array, because
  the row-major position o · 4096 + j splits as ((o · 128 + j / 32) · 32 + j % 32). The second is one half of the
  rank-16 product. The output is the contraction of the activations' last axis with the weight's second axis,
  plus the bias broadcast along the two leading axes. Each stage is read at an index; what remains is to identify
  the composed index functions with the coordinate constructors of the specification.
-/
import proofs.«109840_j44985487458785_1_alg».proof.Proof.Gen.ReferenceIdeal.Run
import proofs.«109840_j44985487458785_1_alg».proof.Proof.Gen.ReferenceIdeal.Read
import proofs.«109840_j44985487458785_1_alg».proof.Proof.Spec

noncomputable section

open scoped BigOperators

namespace Cert.ReferenceIdeal.RefValue

open Cert.ReferenceIdeal Cert.ReferenceIdeal.Read Idealize.ShloMosaic Idealize.ShloMosaic.ValueIdx

/-! ## The index functions of the stages, at coordinates -/

/-- The reshape: position o · 4096 + j of the flat order is group j / 32, lane j % 32 of row o. -/
theorem idx_reshape (o j : Fin 4096) :
    idx_main_v6 (ix2 o j) = ix3 o (Cert.Spec.grp j) (Cert.Spec.lane j) :=
  funext fun a => Fin.ext (by
    have ho : o.val < 4096 := o.isLt
    have hj : j.val < 4096 := j.isLt
    match a with
    | ⟨0, _⟩ => show (o.val * 4096 + j.val) / 4096 = o.val; omega
    | ⟨1, _⟩ => show (o.val * 4096 + j.val) / 32 % 128 = j.val / 32; omega
    | ⟨2, _⟩ => show (o.val * 4096 + j.val) % 32 = j.val % 32; omega)

/-- The scale is broadcast along the lane axis: entry (o, g, l) reads scale (o, g). -/
theorem idx_scale (o : Fin 4096) (g : Fin 128) (l : Fin 32) :
    idx_main_v0 (idx_main_v4 (ix3 o g l)) = ix2 o g :=
  funext fun a => Fin.ext (by
    match a with
    | ⟨0, _⟩ => rfl
    | ⟨1, _⟩ => rfl)

/-- The rank-16 product at (o, j): row o of the left factor, column j of the right. -/
theorem lidx_lowrank (o j : Fin 4096) (r : Fin 16) : lidx_main_v7 (ix2 o j) r = ix2 o r :=
  funext fun a => Fin.ext (by
    match a with
    | ⟨0, _⟩ => rfl
    | ⟨1, _⟩ => rfl)

theorem ridx_lowrank (o j : Fin 4096) (r : Fin 16) : ridx_main_v7 (ix2 o j) r = ix2 r j :=
  funext fun a => Fin.ext (by
    match a with
    | ⟨0, _⟩ => rfl
    | ⟨1, _⟩ => rfl)

/-- The layer's contraction at (b, s, n): row (b, s) of the activations against row n of the weight. -/
theorem lidx_linear (b : Fin 8) (s : Fin 2048) (n k : Fin 4096) : lidx_main_v11 (ix3 b s n) k = ix3 b s k :=
  funext fun a => Fin.ext (by
    match a with
    | ⟨0, _⟩ => rfl
    | ⟨1, _⟩ => rfl
    | ⟨2, _⟩ => rfl)

theorem ridx_linear (b : Fin 8) (s : Fin 2048) (n k : Fin 4096) : ridx_main_v11 (ix3 b s n) k = ix2 n k :=
  funext fun a => Fin.ext (by
    match a with
    | ⟨0, _⟩ => rfl
    | ⟨1, _⟩ => rfl)

/-- The bias is broadcast along the two leading axes: entry (b, s, n) reads bias n. -/
theorem idx_bias (b : Fin 8) (s : Fin 2048) (n : Fin 4096) :
    idx_main_v12 (idx_main_v13 (ix3 b s n)) = ix1 n :=
  funext fun a => Fin.ext (by
    match a with
    | ⟨0, _⟩ => rfl)

/-! ## The weight the host program builds -/

/-- Entry (o, j) of the host's weight is the specification's. -/
theorem weight_eq (x0 : (⟨S4096x128x32, .i32⟩ : BufTy).Contents (Elt Ideal)) (x1 : (⟨S4096x128, .f32⟩ : BufTy).Contents (Elt Ideal))
    (x2 : (⟨S4096x16, .f32⟩ : BufTy).Contents (Elt Ideal)) (x3 : (⟨S16x4096, .f32⟩ : BufTy).Contents (Elt Ideal)) (o j : Fin 4096) :
    val_main_v10 (F := Ideal) x0 x1 x2 x3 (ix2 o j) = Cert.Spec.weight x0 x1 x2 x3 o j := by
  rw [val_main_v10_apply, val_main_v6_apply, val_main_v5_apply, val_main_v4_apply, val_main_v0_apply,
    val_main_v3_apply, val_main_v1_apply, val_main_v2_apply, val_main_cst_apply,
    val_main_v9_apply, val_main_v8_apply, val_main_cst_0_apply, val_main_v7_apply,
    idx_reshape, idx_scale]
  simp only [lidx_lowrank, ridx_lowrank, Ideal.addf_def, Ideal.mulf_def, Ideal.subf_def, Ideal.ofBits_def]
  rfl

/-! ## The result -/

theorem result_eq (x0 : (⟨S4096x128x32, .i32⟩ : BufTy).Contents (Elt Ideal)) (x1 : (⟨S4096x128, .f32⟩ : BufTy).Contents (Elt Ideal))
    (x2 : (⟨S4096x16, .f32⟩ : BufTy).Contents (Elt Ideal)) (x3 : (⟨S16x4096, .f32⟩ : BufTy).Contents (Elt Ideal))
    (x4 : (⟨S4096, .f32⟩ : BufTy).Contents (Elt Ideal)) (x5 : (⟨S8x2048x4096, .f32⟩ : BufTy).Contents (Elt Ideal)) :
    val_main_v14 (F := Ideal) x0 x1 x2 x3 x4 x5 = Cert.Spec.result x0 x1 x2 x3 x4 x5 := by
  funext i
  obtain ⟨b, s, n, rfl⟩ : ∃ (b : Fin 8) (s : Fin 2048) (n : Fin 4096), i = ix3 b s n := ⟨i 0, i 1, i 2, eq_ix3 i⟩
  rw [val_main_v14_apply, val_main_v11_apply, val_main_v13_apply, val_main_v12_apply, idx_bias]
  simp only [lidx_linear, ridx_linear, weight_eq, Ideal.addf_def]
  rfl

end Cert.ReferenceIdeal.RefValue

end
-- ==== Proof.lean ====
/-
  The certificate's claims, assembled.
  Both kernel programs — the word-level one and its idealization, which print the same text — run their two regions and
  three reshapes to the end without a fault and leave the six argument arrays as launched: each region's body is run
  once per control case, the second region carrying its accumulator from grid point to grid point in its invariant.
  The reference is a straight line of host operations. The idealization rewrote nothing, so there is nothing to
  preserve. At the ideal instance the kernel's result buffer and the reference's both hold `Cert.Spec.result` of the
  arguments: on the kernel's side the patched weight is built by the first region block row by block row and the layer
  output by the second, whose four partial inner products per output entry, added in order from zero, are the one inner
  product over all 4096 columns; on the reference's side each host operation is read at an index. Only associativity of
  addition on the extended reals and zero being its unit are used, so the precondition is never opened.
-/
import proofs.«109840_j44985487458785_1_alg».proof.Defs
import proofs.«109840_j44985487458785_1_alg».proof.Proof.Gen.Kernel
import proofs.«109840_j44985487458785_1_alg».proof.Proof.Gen.KernelIdeal
import proofs.«109840_j44985487458785_1_alg».proof.Proof.Gen.ReferenceIdeal
import proofs.«109840_j44985487458785_1_alg».proof.Proof.Gen.Pre_finite_inputs
import proofs.«109840_j44985487458785_1_alg».proof.Proof.Gen.ReferenceIdeal.Run
import proofs.«109840_j44985487458785_1_alg».proof.Proof.Gen.ReferenceIdeal.Read
import proofs.«109840_j44985487458785_1_alg».proof.Proof.K.Segments
import proofs.«109840_j44985487458785_1_alg».proof.Proof.KI.Segments
import proofs.«109840_j44985487458785_1_alg».proof.Proof.Bridge
import proofs.«109840_j44985487458785_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frame.frame (F := Bits) m ρ

theorem frame_ki : Cert.frame_KernelIdeal := fun m ρ _ => Cert.KernelIdeal.Frame.frame (F := Ideal) m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal instance both programs end with `Cert.Spec.result` of arguments that agree. -/
theorem algebraic : Cert.algebraic_KernelIdeal_ReferenceIdeal := by
  intro m ρ m' ρ' _ hagree
  refine ⟨fun c => Cert.Spec.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun r h c => ?_) (Cert.KernelIdeal.Frame.run_all (F := Ideal) m ρ)
    exact ⟨(h c _ (Cert.KernelIdeal.Frame.mem_uc Cert.KernelIdeal.main_v4 (by decide))).trans (Cert.KernelIdeal.Bridge.result_v4 m ρ c),
      (h c _ (Cert.KernelIdeal.Frame.mem_uc Cert.KernelIdeal.main_arg0 (by decide))).trans (Cert.KernelIdeal.Frame.W4_main_arg0 m ρ c),
      (h c _ (Cert.KernelIdeal.Frame.mem_uc Cert.KernelIdeal.main_arg1 (by decide))).trans (Cert.KernelIdeal.Frame.W4_main_arg1 m ρ c),
      (h c _ (Cert.KernelIdeal.Frame.mem_uc Cert.KernelIdeal.main_arg2 (by decide))).trans (Cert.KernelIdeal.Frame.W4_main_arg2 m ρ c),
      (h c _ (Cert.KernelIdeal.Frame.mem_uc Cert.KernelIdeal.main_arg3 (by decide))).trans (Cert.KernelIdeal.Frame.W4_main_arg3 m ρ c),
      (h c _ (Cert.KernelIdeal.Frame.mem_uc Cert.KernelIdeal.main_arg4 (by decide))).trans (Cert.KernelIdeal.Frame.W4_main_arg4 m ρ c),
      (h c _ (Cert.KernelIdeal.Frame.mem_uc Cert.KernelIdeal.main_arg5 (by decide))).trans (Cert.KernelIdeal.Frame.W4_main_arg5 m ρ c)⟩
  · refine (θ_run Cert.ReferenceIdeal.defs _ _).mono (fun _ h c => ⟨?_, (h c).2⟩) (Cert.ReferenceIdeal.Value.run (F := Ideal) m' ρ')
    rw [(h c).1, Cert.ReferenceIdeal.Read.val_main_v14_eq, Cert.ReferenceIdeal.RefValue.result_eq,
      (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
